-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1002x1x256x256 : Shape := ⟨4, ![1002, 1, 256, 256]⟩
abbrev S1 : Shape := ⟨1, ![1]⟩
abbrev S_ : Shape := ⟨0, ![]⟩

class Facts : Prop where
  bcast_S_S1002x1x256x256 : S_.BroadcastsInDim S1002x1x256x256 (![] : Fin 0 → Fin S1002x1x256x256.rank)
  reducesTo_S1002x1x256x256_S_d0_1_2_3 : S1002x1x256x256.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S1002x1x256x256 .f32) (main_arg1 : FVec F S1 .f32) : IVec S_ 1 :=
  let main_v0 : FVec F S1002x1x256x256 .f32 := Host.absf main_arg0
  let main_cst : FVec F S_ .f32 := constant S_ .f32 0x7F800000#32
  let main_v1 : FVec F S1002x1x256x256 .f32 := broadcastInDim S1002x1x256x256 ![] bcast_S_S1002x1x256x256 main_cst
  let main_v2 : IVec S1002x1x256x256 1 := cmpf .olt main_v0 main_v1
  let main_c : IVec S_ 1 := constantI S_ 1 1#1
  let main_v3 : IVec S_ 1 := (fun x v => Host.reduce IntOp.andi x v reducesTo_S1002x1x256x256_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S1002x1x256x256 : Shape := ⟨4, ![1002, 1, 256, 256]⟩
abbrev S1 : Shape := ⟨1, ![1]⟩
abbrev S1002x256x256 : Shape := ⟨3, ![1002, 256, 256]⟩
abbrev S1000x256x256 : Shape := ⟨3, ![1000, 256, 256]⟩
abbrev S25x256x256 : Shape := ⟨3, ![25, 256, 256]⟩
abbrev S1x256x256 : Shape := ⟨3, ![1, 256, 256]⟩
abbrev S256x256 : Shape := ⟨2, ![256, 256]⟩
abbrev S1000x1x256x256 : Shape := ⟨4, ![1000, 1, 256, 256]⟩

abbrev nBuf : Space → Nat
  | .hbm => 5
  | .vmem => 6
  | .smem => 0
  | _ => 0

abbrev bufTy : (tb : Table) → Fin (tcTables nBuf tb) → BufTy
  | .hbm, ⟨0, _⟩ => ⟨S1002x1x256x256, .f32⟩
  | .hbm, ⟨1, _⟩ => ⟨S1, .f32⟩
  | .hbm, ⟨2, _⟩ => ⟨S1002x256x256, .f32⟩
  | .hbm, ⟨3, _⟩ => ⟨S1000x256x256, .f32⟩
  | .hbm, ⟨4, _⟩ => ⟨S1000x1x256x256, .f32⟩
  | .local _ .vmem, ⟨0, _⟩ => ⟨S25x256x256, .f32⟩
  | .local _ .vmem, ⟨1, _⟩ => ⟨S25x256x256, .f32⟩
  | .local _ .vmem, ⟨2, _⟩ => ⟨S1x256x256, .f32⟩
  | .local _ .vmem, ⟨3, _⟩ => ⟨S1x256x256, .f32⟩
  | .local _ .vmem, ⟨4, _⟩ => ⟨S25x256x256, .f32⟩
  | .local _ .vmem, ⟨5, _⟩ => ⟨S25x256x256, .f32⟩
  | _, _ => ⟨S1002x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def k0_off1 (c0_i32_2 : BitVec 32) : Fin 3 → Nat :=
  let c1_i32 : BitVec 32 := 1#32
  let v16 : BitVec 32 := Scalar.addi c0_i32_2 c1_i32
  let v17 : Index := Scalar.indexCast v16
  let c0_4 : Index := 0#32
  let c0_5 : Index := 0#32
  ![v17.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c25_i32 : BitVec 32 := 25#32
  let v1 : BitVec 32 := Scalar.muli v0 c25_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S25x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S25x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1002x1x256x256_S1002x256x256 : S1002x1x256x256.ShapeCasts S1002x256x256
  iota_S256x256_d0_w32 : S256x256.Iotas .tc 32 [0]
  iota_S256x256_d1_w32 : S256x256.Iotas .tc 32 [1]
  inb_S25x256x256_S1x256x256_0_0_0 : ∀ a, (![0, 0, 0] : Fin 3 → Nat) a + S1x256x256.size a ≤ S25x256x256.size a
  h_S1x256x256 : 0 < S1x256x256.numel
  shapeCasts_S1x256x256_S256x256 : S1x256x256.ShapeCasts S256x256
  rotates_S256x256_d0 : S256x256.Rotates 0 none
  rotates_S256x256_d1 : S256x256.Rotates 1 none
  shapeCasts_S256x256_S1x256x256 : S256x256.ShapeCasts S1x256x256
  inb_S25x256x256_S1x256x256_1_0_0 : ∀ a, (![1, 0, 0] : Fin 3 → Nat) a + S1x256x256.size a ≤ S25x256x256.size a
  inb_S25x256x256_S1x256x256_2_0_0 : ∀ a, (![2, 0, 0] : Fin 3 → Nat) a + S1x256x256.size a ≤ S25x256x256.size a
  inb_S25x256x256_S1x256x256_3_0_0 : ∀ a, (![3, 0, 0] : Fin 3 → Nat) a + S1x256x256.size a ≤ S25x256x256.size a
  inb_S25x256x256_S1x256x256_4_0_0 : ∀ a, (![4, 0, 0] : Fin 3 → Nat) a + S1x256x256.size a ≤ S25x256x256.size a
  inb_S25x256x256_S1x256x256_5_0_0 : ∀ a, (![5, 0, 0] : Fin 3 → Nat) a + S1x256x256.size a ≤ S25x256x256.size a
  inb_S25x256x256_S1x256x256_6_0_0 : ∀ a, (![6, 0, 0] : Fin 3 → Nat) a + S1x256x256.size a ≤ S25x256x256.size a
  inb_S25x256x256_S1x256x256_7_0_0 : ∀ a, (![7, 0, 0] : Fin 3 → Nat) a + S1x256x256.size a ≤ S25x256x256.size a
  inb_S25x256x256_S1x256x256_8_0_0 : ∀ a, (![8, 0, 0] : Fin 3 → Nat) a + S1x256x256.size a ≤ S25x256x256.size a
  inb_S25x256x256_S1x256x256_9_0_0 : ∀ a, (![9, 0, 0] : Fin 3 → Nat) a + S1x256x256.size a ≤ S25x256x256.size a
  inb_S25x256x256_S1x256x256_10_0_0 : ∀ a, (![10, 0, 0] : Fin 3 → Nat) a + S1x256x256.size a ≤ S25x256x256.size a
  inb_S25x256x256_S1x256x256_11_0_0 : ∀ a, (![11, 0, 0] : Fin 3 → Nat) a + S1x256x256.size a ≤ S25x256x256.size a
  inb_S25x256x256_S1x256x256_12_0_0 : ∀ a, (![12, 0, 0] : Fin 3 → Nat) a + S1x256x256.size a ≤ S25x256x256.size a
  inb_S25x256x256_S1x256x256_13_0_0 : ∀ a, (![13, 0, 0] : Fin 3 → Nat) a + S1x256x256.size a ≤ S25x256x256.size a
  inb_S25x256x256_S1x256x256_14_0_0 : ∀ a, (![14, 0, 0] : Fin 3 → Nat) a + S1x256x256.size a ≤ S25x256x256.size a
  inb_S25x256x256_S1x256x256_15_0_0 : ∀ a, (![15, 0, 0] : Fin 3 → Nat) a + S1x256x256.size a ≤ S25x256x256.size a
  inb_S25x256x256_S1x256x256_16_0_0 : ∀ a, (![16, 0, 0] : Fin 3 → Nat) a + S1x256x256.size a ≤ S25x256x256.size a
  inb_S25x256x256_S1x256x256_17_0_0 : ∀ a, (![17, 0, 0] : Fin 3 → Nat) a + S1x256x256.size a ≤ S25x256x256.size a
  inb_S25x256x256_S1x256x256_18_0_0 : ∀ a, (![18, 0, 0] : Fin 3 → Nat) a + S1x256x256.size a ≤ S25x256x256.size a
  inb_S25x256x256_S1x256x256_19_0_0 : ∀ a, (![19, 0, 0] : Fin 3 → Nat) a + S1x256x256.size a ≤ S25x256x256.size a
  inb_S25x256x256_S1x256x256_20_0_0 : ∀ a, (![20, 0, 0] : Fin 3 → Nat) a + S1x256x256.size a ≤ S25x256x256.size a
  inb_S25x256x256_S1x256x256_21_0_0 : ∀ a, (![21, 0, 0] : Fin 3 → Nat) a + S1x256x256.size a ≤ S25x256x256.size a
  inb_S25x256x256_S1x256x256_22_0_0 : ∀ a, (![22, 0, 0] : Fin 3 → Nat) a + S1x256x256.size a ≤ S25x256x256.size a
  inb_S25x256x256_S1x256x256_23_0_0 : ∀ a, (![23, 0, 0] : Fin 3 → Nat) a + S1x256x256.size a ≤ S25x256x256.size a
  inb_S25x256x256_S1x256x256_24_0_0 : ∀ a, (![24, 0, 0] : Fin 3 → Nat) a + S1x256x256.size a ≤ S25x256x256.size a
  inb_S1x256x256_S1x256x256_0_0_0 : ∀ a, (![0, 0, 0] : Fin 3 → Nat) a + S1x256x256.size a ≤ S1x256x256.size a
  bcast_S1000x256x256_S1000x1x256x256_0_2_3 : S1000x256x256.BroadcastsInDim S1000x1x256x256 (![0, 2, 3] : Fin 3 → Fin S1000x1x256x256.rank)
  hrank0 : 0 < grid0.rank
  k0_off1_inb : ∀ (r : Fin 24), ∀ a, (k0_off1 (BitVec.ofNat 32 r.val)) a + S1x256x256.size a ≤ S25x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S25x256x256.size a < S1002x256x256.size a
  hwx0_0 : ∀ i : grid0.Coords, EltTy.bits .f32 = 32 ∨ (Rect.unit (s := S1002x256x256) (fun a => cc0_transform_0 i a * S25x256x256.size a) (fun a => (Pipeline.Clip.of (cc0_transform_0 i a) (S25x256x256.size a) (S1002x256x256.size a)).extent (S25x256x256.size a)) fun a => Pipeline.Clip.inb (Pipeline.Clip.ok_of (hstart0_0 i a))).WholeWords (EltTy.packing .f32)
  hwxs0_0 : ∀ i : grid0.Coords, EltTy.bits .f32 = 32 ∨ (Rect.unit (s := S25x256x256) (fun _ => 0) (fun a => (Pipeline.Clip.of (cc0_transform_0 i a) (S25x256x256.size a) (S1002x256x256.size a)).extent (S25x256x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S1002x256x256.size a
  hwx0_1 : ∀ i : grid0.Coords, EltTy.bits .f32 = 32 ∨ (Rect.block (s := S1002x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25x256x256.size a ≤ S1000x256x256.size a
  hwx0_2 : ∀ i : grid0.Coords, EltTy.bits .f32 = 32 ∨ (Rect.block (s := S1000x256x256) S25x256x256.size (cc0_transform_2 i) (hinb0_2 i)).WholeWords (EltTy.packing .f32)

variable [Facts₀]

abbrev win0_0 : Pipeline.Window sig grid0 :=
  Pipeline.Window.ofSpecClip (Memref.whole main_v0) S25x256x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S25x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1002x1x256x256 : Shape := ⟨4, ![1002, 1, 256, 256]⟩
abbrev S1 : Shape := ⟨1, ![1]⟩
abbrev S1002x256x256 : Shape := ⟨3, ![1002, 256, 256]⟩
abbrev S_ : Shape := ⟨0, ![]⟩
abbrev S1002x256 : Shape := ⟨2, ![1002, 256]⟩
abbrev S1000x256x256 : Shape := ⟨3, ![1000, 256, 256]⟩
abbrev S1000x254x254 : Shape := ⟨3, ![1000, 254, 254]⟩
abbrev S2 : Shape := ⟨1, ![2]⟩
abbrev S1000x1x256x256 : Shape := ⟨4, ![1000, 1, 256, 256]⟩

abbrev nBuf : Space → Nat
  | .hbm => 62
  | .vmem => 0
  | .smem => 0
  | _ => 0

abbrev bufTy : (tb : Table) → Fin (tcTables nBuf tb) → BufTy
  | .hbm, ⟨0, _⟩ => ⟨S1002x1x256x256, .f32⟩
  | .hbm, ⟨1, _⟩ => ⟨S1, .f32⟩
  | .hbm, ⟨2, _⟩ => ⟨S1002x256x256, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S1002x256, .f32⟩
  | .hbm, ⟨7, _⟩ => ⟨S1002x256x256, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S1002x256, .f32⟩
  | .hbm, ⟨12, _⟩ => ⟨S1002x256x256, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S1002x256, .f32⟩
  | .hbm, ⟨17, _⟩ => ⟨S1002x256x256, .f32⟩
  | .hbm, ⟨18, _⟩ => ⟨S_, .i32⟩
  | .hbm, ⟨19, _⟩ => ⟨S1, .i32⟩
  | .hbm, ⟨20, _⟩ => ⟨S_, .f32⟩
  | .hbm, ⟨21, _⟩ => ⟨S1002x256, .f32⟩
  | .hbm, ⟨22, _⟩ => ⟨S1002x256x256, .f32⟩
  | .hbm, ⟨23, _⟩ => ⟨S1000x256x256, .f32⟩
  | .hbm, ⟨24, _⟩ => ⟨S1000x256x256, .f32⟩
  | .hbm, ⟨25, _⟩ => ⟨S1000x254x254, .f32⟩
  | .hbm, ⟨26, _⟩ => ⟨S_, .f32⟩
  | .hbm, ⟨27, _⟩ => ⟨S1000x254x254, .f32⟩
  | .hbm, ⟨28, _⟩ => ⟨S1000x254x254, .f32⟩
  | .hbm, ⟨29, _⟩ => ⟨S1000x254x254, .f32⟩
  | .hbm, ⟨30, _⟩ => ⟨S1000x254x254, .f32⟩
  | .hbm, ⟨31, _⟩ => ⟨S1000x254x254, .f32⟩
  | .hbm, ⟨32, _⟩ => ⟨S_, .f32⟩
  | .hbm, ⟨33, _⟩ => ⟨S1000x254x254, .f32⟩
  | .hbm, ⟨34, _⟩ => ⟨S1000x254x254, .f32⟩
  | .hbm, ⟨35, _⟩ => ⟨S1000x254x254, .f32⟩
  | .hbm, ⟨36, _⟩ => ⟨S1000x254x254, .f32⟩
  | .hbm, ⟨37, _⟩ => ⟨S1000x254x254, .f32⟩
  | .hbm, ⟨38, _⟩ => ⟨S_, .f32⟩
  | .hbm, ⟨39, _⟩ => ⟨S1000x254x254, .f32⟩
  | .hbm, ⟨40, _⟩ => ⟨S1000x254x254, .f32⟩
  | .hbm, ⟨41, _⟩ => ⟨S1000x254x254, .f32⟩
  | .hbm, ⟨42, _⟩ => ⟨S1000x254x254, .f32⟩
  | .hbm, ⟨43, _⟩ => ⟨S_, .f32⟩
  | .hbm, ⟨44, _⟩ => ⟨S1000x254x254, .f32⟩
  | .hbm, ⟨45, _⟩ => ⟨S1000x254x254, .f32⟩
  | .hbm, ⟨46, _⟩ => ⟨S1000x254x254, .f32⟩
  | .hbm, ⟨47, _⟩ => ⟨S1000x254x254, .f32⟩
  | .hbm, ⟨48, _⟩ => ⟨S1000x254x254, .f32⟩
  | .hbm, ⟨49, _⟩ => ⟨S_, .f32⟩
  | .hbm, ⟨50, _⟩ => ⟨S1000x254x254, .f32⟩
  | .hbm, ⟨51, _⟩ => ⟨S1000x254x254, .f32⟩
  | .hbm, ⟨52, _⟩ => ⟨S1000x254x254, .f32⟩
  | .hbm, ⟨53, _⟩ => ⟨S_, .f32⟩
  | .hbm, ⟨54, _⟩ => ⟨S1000x256x256, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S1000x256x256, .f32⟩
  | .hbm, ⟨61, _⟩ => ⟨S1000x1x256x256, .f32⟩
  | _, _ => ⟨S1002x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_c_12 : Ref sig .tc := ⟨.hbm, 55, rfl⟩
abbrev main_v39 : Ref sig .tc := ⟨.hbm, 56, rfl⟩
abbrev main_c_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  shapeCasts_S1002x1x256x256_S1002x256x256 : S1002x1x256x256.ShapeCasts S1002x256x256
  bcast_S_S1 : S_.BroadcastsInDim S1 (![] : Fin 0 → Fin S1.rank)
  bcast_S_S1002x256 : S_.BroadcastsInDim S1002x256 (![] : Fin 0 → Fin S1002x256.rank)
  slices_S1002x256x256_S1000x256x256_1_0_0 : S1002x256x256.Slices ![1, 0, 0] S1000x256x256
  slices_S1002x256x256_S1000x256x256_0_0_0 : S1002x256x256.Slices ![0, 0, 0] S1000x256x256
  slices_S1000x256x256_S1000x254x254_0_1_1 : S1000x256x256.Slices ![0, 1, 1] S1000x254x254
  bcast_S_S1000x254x254 : S_.BroadcastsInDim S1000x254x254 (![] : Fin 0 → Fin S1000x254x254.rank)
  slices_S1000x256x256_S1000x254x254_0_2_1 : S1000x256x256.Slices ![0, 2, 1] S1000x254x254
  slices_S1000x256x256_S1000x254x254_0_0_1 : S1000x256x256.Slices ![0, 0, 1] S1000x254x254
  slices_S1000x256x256_S1000x254x254_0_1_2 : S1000x256x256.Slices ![0, 1, 2] S1000x254x254
  slices_S1000x256x256_S1000x254x254_0_1_0 : S1000x256x256.Slices ![0, 1, 0] S1000x254x254
  bcast_S_S1000x256x256 : S_.BroadcastsInDim S1000x256x256 (![] : Fin 0 → Fin S1000x256x256.rank)
  concatenates_S1_S1_S2_d0 : Shape.Concatenates [S1, S1] S2 0
  bcast_S1000x256x256_S1000x1x256x256_0_2_3 : S1000x256x256.BroadcastsInDim S1000x1x256x256 (![0, 2, 3] : Fin 3 → Fin S1000x1x256x256.rank)
  scatter_S1002x256x256_S1_S1002x256_01_1_1_0_wf : ScatterDims.WF S1002x256x256 S1 S1002x256 [0, 1] [1] [1] 0
  scatter_S1002x256x256_S1_S1002x256_01_2_2_0_wf : ScatterDims.WF S1002x256x256 S1 S1002x256 [0, 1] [2] [2] 0
  scatter_S1000x256x256_S2_S1000x254x254_012_n_12_0_wf : ScatterDims.WF S1000x256x256 S2 S1000x254x254 [0, 1, 2] [] [1, 2] 0

variable [Facts₀]

def scatter_S1002x256x256_S1_S1002x256_01_1_1_0 : ScatterDims S1002x256x256 S1 S1002x256 where
  updateWindowDims := [0, 1]
  insertedWindowDims := [1]
  scatterDimsToOperandDims := [1]
  indexVectorDim := 0
  wf := scatter_S1002x256x256_S1_S1002x256_01_1_1_0_wf
def scatter_S1002x256x256_S1_S1002x256_01_2_2_0 : ScatterDims S1002x256x256 S1 S1002x256 where
  updateWindowDims := [0, 1]
  insertedWindowDims := [2]
  scatterDimsToOperandDims := [2]
  indexVectorDim := 0
  wf := scatter_S1002x256x256_S1_S1002x256_01_2_2_0_wf
def scatter_S1000x256x256_S2_S1000x254x254_012_n_12_0 : ScatterDims S1000x256x256 S2 S1000x254x254 where
  updateWindowDims := [0, 1, 2]
  insertedWindowDims := []
  scatterDimsToOperandDims := [1, 2]
  indexVectorDim := 0
  wf := scatter_S1000x256x256_S2_S1000x254x254_012_n_12_0_wf

class Facts : Prop extends Facts₀ where

variable [Facts]
-- ==== Proof.Spec.lean ====
import Idealize.ShloMosaic.PureOps.Ideal
import Idealize.ShloMosaic.Lib.ValueIdx

/-!
The leapfrog wave stencil as a function of the stacked frames.

A frame is a function of a pixel `(r, c)`; it is always read with its border (rows 0 and 255, columns 0
and 255) replaced by zero (`zf`). From the frame before (`fm`) and the current frame (`fn`) the stencil
makes a frame that is zero on the border and at an interior pixel is

  2·z fn − z fm  +  κ · (the discrete Laplacian of z fn),      κ the 32-bit float nearest 0.2025.

The two programs group the Laplacian differently: the kernel adds the two second differences and
multiplies once by κ (`stFK`); the reference multiplies each second difference by κ and adds (`stFR`).
The two agree when both frames hold real numbers (`stFK_eq_stFR`): distributivity fails at infinities,
which is where the finiteness of the inputs is used.

`u` is the stack of 1002 frames; output frame `n` (of 1000) is the stencil of frames `n` and `n + 1`.
-/

noncomputable section

namespace Cert.Wave

open Idealize.ShloMosaic Idealize.ShloMosaic.ValueIdx

/-- The stack of input frames, and the stack of output frames. -/
abbrev SIn : Shape := ⟨3, ![1002, 256, 256]⟩
abbrev SOut : Shape := ⟨3, ![1000, 256, 256]⟩

/-- The three float literals of both programs, as their exact binary values: 0, 2 and κ. -/
abbrev zeroE : EReal := Ideal.ofBits .f32 0x00000000#32
abbrev twoE : EReal := Ideal.ofBits .f32 0x40000000#32
abbrev kappaE : EReal := Ideal.ofBits .f32 0x3E4F5C29#32

/-- Pixel `(r, c)` is off the frame's border. -/
abbrev Inside (r c : Nat) : Prop := 0 < r ∧ r < 255 ∧ 0 < c ∧ c < 255

/-- A frame with its border zeroed. -/
def zf (f : Nat → Nat → EReal) (r c : Nat) : EReal := if Inside r c then f r c else zeroE

/-- The stencil of the frame before `fm` and the current frame `fn`, in the kernel's grouping. -/
def stFK (fm fn : Nat → Nat → EReal) (r c : Nat) : EReal :=
  if Inside r c then
    (twoE * zf fn r c - zf fm r c)
      + kappaE * (((zf fn (r + 1) c + zf fn (r - 1) c) - twoE * zf fn r c)
                + ((zf fn r (c + 1) + zf fn r (c - 1)) - twoE * zf fn r c))
  else zeroE

/-- The same in the reference's grouping. -/
def stFR (fm fn : Nat → Nat → EReal) (r c : Nat) : EReal :=
  if Inside r c then
    ((twoE * zf fn r c - zf fm r c)
        + kappaE * ((zf fn (r + 1) c - twoE * zf fn r c) + zf fn (r - 1) c))
      + kappaE * ((zf fn r (c + 1) - twoE * zf fn r c) + zf fn r (c - 1))
  else zeroE

/-- A 32-bit pattern (more generally any IEEE-style pattern) whose exponent field is not all ones
denotes a real number: it is a zero, a subnormal or a normal, never an infinity or a NaN. -/
private theorem ieee_real (e m : Nat) {w : Nat} (b : BitVec w)
    (h : (b.extractLsb' m e).toNat ≠ 2 ^ e - 1) : ∃ x : ℝ, Ideal.ieee e m b = (x : EReal) := by
  unfold Ideal.ieee
  simp only [if_neg h]
  split <;> exact ⟨_, rfl⟩

/-- The three literals are real numbers. Only that is used of 2 and κ, never their values. -/
private theorem zeroE_real : ∃ x : ℝ, zeroE = (x : EReal) :=
  show ∃ x : ℝ, Ideal.ieee 8 23 (0x00000000#32) = (x : EReal) from ieee_real 8 23 (0x00000000#32) (by decide)
private theorem twoE_real : ∃ x : ℝ, twoE = (x : EReal) :=
  show ∃ x : ℝ, Ideal.ieee 8 23 (0x40000000#32) = (x : EReal) from ieee_real 8 23 (0x40000000#32) (by decide)
private theorem kappaE_real : ∃ x : ℝ, kappaE = (x : EReal) :=
  show ∃ x : ℝ, Ideal.ieee 8 23 (0x3E4F5C29#32) = (x : EReal) from ieee_real 8 23 (0x3E4F5C29#32) (by decide)

/-- A frame of real numbers, read with its border zeroed, still holds real numbers. -/
private theorem zf_real (f : Nat → Nat → EReal) (hf : ∀ r c, ∃ x : ℝ, f r c = (x : EReal)) (r c : Nat) :
    ∃ x : ℝ, zf f r c = (x : EReal) := by
  unfold zf
  split
  · exact hf r c
  · exact zeroE_real

/-- The two groupings of the stencil agree on real numbers: over ℝ it is distributivity of κ over the
sum of the two second differences, and the coercion into the extended reals respects +, − and ·. -/
private theorem group_coe (t k z p a b d e : ℝ) :
    ((t : EReal) * z - p) + (k : EReal) * ((((a : EReal) + b) - (t : EReal) * z) + (((d : EReal) + e) - (t : EReal) * z))
      = (((t : EReal) * z - p) + (k : EReal) * (((a : EReal) - (t : EReal) * z) + b))
          + (k : EReal) * (((d : EReal) - (t : EReal) * z) + e) := by
  simp only [← EReal.coe_mul, ← EReal.coe_add, ← EReal.coe_sub, EReal.coe_eq_coe_iff]
  ring

/-- On frames of real numbers the two groupings agree. -/
theorem stFK_eq_stFR (fm fn : Nat → Nat → EReal)
    (hm : ∀ r c, ∃ x : ℝ, fm r c = (x : EReal)) (hn : ∀ r c, ∃ x : ℝ, fn r c = (x : EReal)) (r c : Nat) :
    stFK fm fn r c = stFR fm fn r c := by
  by_cases h : Inside r c
  · obtain ⟨t, ht⟩ := twoE_real
    obtain ⟨k, hk⟩ := kappaE_real
    obtain ⟨z, hz⟩ := zf_real fn hn r c
    obtain ⟨p, hp⟩ := zf_real fm hm r c
    obtain ⟨a, ha⟩ := zf_real fn hn (r + 1) c
    obtain ⟨b, hb⟩ := zf_real fn hn (r - 1) c
    obtain ⟨d, hd⟩ := zf_real fn hn r (c + 1)
    obtain ⟨e, he⟩ := zf_real fn hn r (c - 1)
    rw [stFK, stFR, if_pos h, if_pos h, ht, hk, hz, hp, ha, hb, hd, he]
    exact group_coe t k z p a b d e
  · rw [stFK, stFR, if_neg h, if_neg h]

/-- Frame `n` of the stack `u`, as a function of the pixel; zero outside the stack. -/
def frameOf (u : SIn.Idx → EReal) (n : Nat) : Nat → Nat → EReal := fun r c =>
  if h : n < 1002 ∧ r < 256 ∧ c < 256 then u (ix3 ⟨n, h.1⟩ ⟨r, h.2.1⟩ ⟨c, h.2.2⟩) else zeroE

/-- The whole output stack, in each grouping. -/
def outK (u : SIn.Idx → EReal) : SOut.Idx → EReal :=
  fun i => stFK (frameOf u (i 0).val) (frameOf u ((i 0).val + 1)) (i 1).val (i 2).val
def outR (u : SIn.Idx → EReal) : SOut.Idx → EReal :=
  fun i => stFR (frameOf u (i 0).val) (frameOf u ((i 0).val + 1)) (i 1).val (i 2).val

/-- A frame of a stack of real numbers holds real numbers. -/
theorem frameOf_real (u : SIn.Idx → EReal) (hu : ∀ i, ∃ x : ℝ, u i = (x : EReal)) (n r c : Nat) :
    ∃ x : ℝ, frameOf u n r c = (x : EReal) := by
  unfold frameOf
  split
  · exact hu _
  · exact zeroE_real

/-- On a stack of real numbers the two groupings give the same output stack. -/
theorem outK_eq_outR (u : SIn.Idx → EReal) (hu : ∀ i, ∃ x : ℝ, u i = (x : EReal)) : outK u = outR u :=
  funext fun i => stFK_eq_stFR _ _ (frameOf_real u hu _) (frameOf_real u hu _) _ _

end Cert.Wave

end
-- ==== Proof.Finite.lean ====
import proofs.«164955_j9826885174019_1_alg».proof.Defs
import proofs.«164955_j9826885174019_1_alg».proof.Proof.Gen.Pre_finite_inputs
import Idealize.ShloMosaic.Lib.ReduceAll
import Idealize.ShloMosaic.Lib.ValueIdx

/-!
The precondition says every entry of the first argument is a real number: `|x| < +∞` holds of an extended
real exactly when it is neither infinity.
-/

noncomputable section

namespace Cert.Wave

open Idealize.ShloMosaic Idealize.ShloMosaic.TcCoe Idealize.ShloMosaic.ValueIdx Idealize.SL.Sem

/-- An extended real whose absolute value `max x (-x)` compares below the pattern of `+∞` is a real
number: at either infinity the absolute value is `+∞`, which is not below itself. -/
private theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => simp [Ideal.cmp] at hx
  | coe r => exact ⟨r, rfl⟩
  | top => simp [Ideal.cmp] at hx

/-- Under the precondition every entry of the kernel's first argument is a real number. -/
theorem arg0_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1002x1x256x256.Idx) :
    ∃ x : ℝ, m ((c.tc : Thread Cert.KernelIdeal.nD Cert.KernelIdeal.τ).loc Cert.KernelIdeal.main_arg0) i = (x : EReal) := by
  -- the precondition at the one index of its result
  have h0 := congrFun (h c) ValueIdx.ix0
  dsimp only [Cert.Pre_finite_inputs.fn] at h0
  -- its first conjunct is the reduction by `and` over the first argument
  have h1 := (IntOp.andi_eq_one.1 h0).1
  haveI : Subsingleton Cert.Pre_finite_inputs.S_.Idx := ⟨fun a b => funext fun d => d.elim0⟩
  -- so the comparison holds at every index, in particular at `i`
  have h2 := Host.reduce_andi_all _ _ _ _ _ h1 i
  exact real_of_abs_lt_inf _ h2

end Cert.Wave

end
-- ==== Proof.RefValue.lean ====
import proofs.«164955_j9826885174019_1_alg».proof.Proof.Gen.ReferenceIdeal.Read
import proofs.«164955_j9826885174019_1_alg».proof.Proof.Spec
import Idealize.ShloMosaic.Lib.Pipeline.Value
import Idealize.ShloMosaic.Lib.ValueIdx

/-!
The reference's result, read at an index.

The reference zeroes the border of every frame by four scatters of a zero slab (rows 0 and 255, columns 0
and 255), slices the stack into the frames before and the current frames, computes the stencil on the
254 × 254 interior from shifted slices, and scatters the interior into a stack of zeros at offset (1, 1).
Read at frame `n`, pixel `(r, c)`, that is the stencil of stack frames `n` and `n + 1` in the
reference's grouping.
-/

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

section ScatterSet
variable {s si u : Shape} {w : Nat} {α : Type}

/-- An update index lands on the operand index `i` exactly when, on every axis, start plus window coordinate is
    `i`'s coordinate. -/
private theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · next hh =>
      have e := Option.some.inj h
      intro a
      have ea := congrArg Fin.val (congrFun e a)
      have h0 := (hh a).1
      simp only at ea
      omega
    · cases h
  · intro h
    rw [dif_pos (fun a => by rw [h a]; exact ⟨Int.natCast_nonneg _, by exact_mod_cast (i a).isLt⟩)]
    congr 1
    funext a
    apply Fin.ext
    show (d.start j idx a + (d.window j a : Int)).toNat = (i a).val
    rw [h a]
    exact Int.toNat_natCast _

/-- The fold of a set-scatter's steps leaves alone an element no update of the list lands on. -/
private theorem scatter_fold_miss (d : ScatterDims s si u) (idx : IVec si w) (upd : u.Idx → α) (i : s.Idx) :
    ∀ (l : List (Fin u.numel)) (r : s.Idx → α), (∀ n ∈ l, d.resultIdx? (u.rowMajor.symm n) idx ≠ some i) →
      (l.foldl (fun r n =>
        match d.resultIdx? (u.rowMajor.symm n) idx with
        | some k => fun i' => if i' = k then (fun (_ : α) (b : α) => b) (r k) (upd (u.rowMajor.symm n)) else r i'
        | none => r) r) i = r i := by
  intro l
  induction l with
  | nil => intro r _; rfl
  | cons n l ih =>
    intro r h
    rw [List.foldl_cons, ih _ (fun m hm => h m (List.mem_cons_of_mem _ hm))]
    have hn := h n List.mem_cons_self
    generalize d.resultIdx? (u.rowMajor.symm n) idx = o at hn
    cases o with
    | none => rfl
    | some k =>
      show (if i = k then _ else r i) = r i
      rw [if_neg]
      rintro rfl
      exact hn rfl

/-- The fold of a set-scatter's steps puts at an element the update of the one update index that lands on it. -/
private theorem scatter_fold_hit (d : ScatterDims s si u) (idx : IVec si w) (upd : u.Idx → α) (i : s.Idx) (n0 : Fin u.numel)
    (h0 : d.resultIdx? (u.rowMajor.symm n0) idx = some i) :
    ∀ (l : List (Fin u.numel)) (r : s.Idx → α), (∀ n ∈ l, d.resultIdx? (u.rowMajor.symm n) idx = some i → n = n0) →
      (r i = upd (u.rowMajor.symm n0) ∨ n0 ∈ l) →
      (l.foldl (fun r n =>
        match d.resultIdx? (u.rowMajor.symm n) idx with
        | some k => fun i' => if i' = k then (fun (_ : α) (b : α) => b) (r k) (upd (u.rowMajor.symm n)) else r i'
        | none => r) r) i = upd (u.rowMajor.symm n0) := by
  intro l
  induction l with
  | nil =>
    intro r _ h
    rcases h with h | h
    · exact h
    · cases h
  | cons n l ih =>
    intro r hu h
    rw [List.foldl_cons]
    refine ih _ (fun m hm => hu m (List.mem_cons_of_mem _ hm)) ?_
    by_cases hn : d.resultIdx? (u.rowMajor.symm n) idx = some i
    · left
      have e := hu n List.mem_cons_self hn
      subst e
      rw [hn]
      show (if i = i then _ else _) = _
      rw [if_pos rfl]
    · have hne : n0 ≠ n := by rintro rfl; exact hn h0
      rcases h with h | h
      · left
        generalize d.resultIdx? (u.rowMajor.symm n) idx = o at hn
        cases o with
        | none => exact h
        | some k =>
          show (if i = k then _ else r i) = _
          rw [if_neg, h]
          rintro rfl
          exact hn rfl
      · right
        rcases List.mem_cons.1 h with h | h
        · exact absurd h hne
        · exact h

/-- A scatter whose body returns the update, at an element no update lands on: the operand's element. -/
private theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact scatter_fold_miss d idx upd i _ x (fun n _ => h _)

/-- A scatter whose body returns the update, at an element exactly one update lands on: that update's element. -/
private theorem scatter_set_hit (d : ScatterDims s si u) (x : s.Idx → α) (idx : IVec si w) (upd : u.Idx → α) (i : s.Idx)
    (j0 : u.Idx) (h0 : d.resultIdx? j0 idx = some i) (hu : ∀ j, d.resultIdx? j idx = some i → j = j0) :
    Host.scatter d (fun _ b => b) x idx upd i = upd j0 := by
  unfold Host.scatter
  have e : u.rowMajor.symm (u.rowMajor j0) = j0 := Equiv.symm_apply_apply _ _
  have := scatter_fold_hit d idx upd i (u.rowMajor j0) (by rw [e]; exact h0) (List.finRange u.numel) x
    (fun n _ hn => by
      have := hu _ hn
      rw [← this]; exact (Equiv.apply_symm_apply _ _).symm)
    (Or.inr (List.mem_finRange _))
  rw [e] at this
  exact this

/-- The start of every window of a scatter whose indices all hold one word. -/
private theorem start_const (d : ScatterDims s si u) (j : u.Idx) (c : BitVec w) (a : Fin s.rank) :
    d.start j (fun _ => c) a = if a ∈ d.scatterDimsToOperandDims then c.toInt else 0 := by
  unfold ScatterDims.start
  split <;> rfl

end ScatterSet

section Records
variable {α : Type}

/-! The three scatters' windows and starts, axis by axis, when every scatter index holds the word `c`. -/

private theorem row_start0 (c : BitVec 32) (j : S1002x256.Idx) :
    scatter_S1002x256x256_S1_S1002x256_01_1_1_0.start j (fun _ => c) 0 = 0 := rfl
private theorem row_start1 (c : BitVec 32) (j : S1002x256.Idx) :
    scatter_S1002x256x256_S1_S1002x256_01_1_1_0.start j (fun _ => c) 1 = c.toInt := rfl
private theorem row_start2 (c : BitVec 32) (j : S1002x256.Idx) :
    scatter_S1002x256x256_S1_S1002x256_01_1_1_0.start j (fun _ => c) 2 = 0 := rfl
private theorem row_window0 (j : S1002x256.Idx) :
    scatter_S1002x256x256_S1_S1002x256_01_1_1_0.window j 0 = (j 0).val := rfl
private theorem row_window1 (j : S1002x256.Idx) :
    scatter_S1002x256x256_S1_S1002x256_01_1_1_0.window j 1 = 0 := rfl
private theorem row_window2 (j : S1002x256.Idx) :
    scatter_S1002x256x256_S1_S1002x256_01_1_1_0.window j 2 = (j 1).val := rfl

/-- A slab update `(m, q)` of the row scatter lands on `(n, r, q')` exactly when `m = n`, the row is the start and
    `q = q'`. -/
private theorem row_lands (c : BitVec 32) (j : S1002x256.Idx) (n : Fin 1002) (r q : Fin 256) :
    scatter_S1002x256x256_S1_S1002x256_01_1_1_0.resultIdx? j (fun _ => c) = some (ix3 n r q) ↔
      (j 0).val = n.val ∧ c.toInt = r.val ∧ (j 1).val = q.val := by
  rw [resultIdx?_eq_some_iff]
  have e0 : ((ix3 n r q 0).val : Int) = n.val := rfl
  have e1 : ((ix3 n r q 1).val : Int) = r.val := rfl
  have e2 : ((ix3 n r q 2).val : Int) = q.val := rfl
  constructor
  · intro h
    have h0 := h 0
    have h1 := h 1
    have h2 := h 2
    rw [row_start0, row_window0, e0] at h0
    rw [row_start1, row_window1, e1] at h1
    rw [row_start2, row_window2, e2] at h2
    omega
  · rintro ⟨h0, h1, h2⟩ a
    match a with
    | ⟨0, _⟩ =>
      show scatter_S1002x256x256_S1_S1002x256_01_1_1_0.start j (fun _ => c) 0
        + (scatter_S1002x256x256_S1_S1002x256_01_1_1_0.window j 0 : Int) = ((ix3 n r q 0).val : Int)
      rw [row_start0, row_window0, e0]; omega
    | ⟨1, _⟩ =>
      show scatter_S1002x256x256_S1_S1002x256_01_1_1_0.start j (fun _ => c) 1
        + (scatter_S1002x256x256_S1_S1002x256_01_1_1_0.window j 1 : Int) = ((ix3 n r q 1).val : Int)
      rw [row_start1, row_window1, e1]; omega
    | ⟨2, _⟩ =>
      show scatter_S1002x256x256_S1_S1002x256_01_1_1_0.start j (fun _ => c) 2
        + (scatter_S1002x256x256_S1_S1002x256_01_1_1_0.window j 2 : Int) = ((ix3 n r q 2).val : Int)
      rw [row_start2, row_window2, e2]; omega

/-- The row scatter with every index the word `c`, which reads row `k`: row `k` of every frame is the slab, the
    other rows are the operand's. -/
private theorem row_scatter_apply (c : BitVec 32) (k : Nat) (hc : c.toInt = k) (x : S1002x256x256.Idx → α)
    (upd : S1002x256.Idx → α) (n : Fin 1002) (r q : Fin 256) :
    Host.scatter scatter_S1002x256x256_S1_S1002x256_01_1_1_0 (fun _ b => b) x (fun _ => c) upd (ix3 n r q)
      = if r.val = k then upd (ix2 n q) else x (ix3 n r q) := by
  split
  · next h =>
    refine scatter_set_hit _ x _ upd _ (ix2 n q) ((row_lands c _ n r q).2 ⟨rfl, by omega, rfl⟩) (fun j hj => ?_)
    have hh := (row_lands c j n r q).1 hj
    rw [eq_ix2 j]
    congr 1
    · exact Fin.ext hh.1
    · exact Fin.ext hh.2.2
  · next h =>
    refine scatter_set_miss _ x _ upd _ (fun j hj => h ?_)
    have hh := (row_lands c j n r q).1 hj
    omega

private theorem col_start0 (c : BitVec 32) (j : S1002x256.Idx) :
    scatter_S1002x256x256_S1_S1002x256_01_2_2_0.start j (fun _ => c) 0 = 0 := rfl
private theorem col_start1 (c : BitVec 32) (j : S1002x256.Idx) :
    scatter_S1002x256x256_S1_S1002x256_01_2_2_0.start j (fun _ => c) 1 = 0 := rfl
private theorem col_start2 (c : BitVec 32) (j : S1002x256.Idx) :
    scatter_S1002x256x256_S1_S1002x256_01_2_2_0.start j (fun _ => c) 2 = c.toInt := rfl
private theorem col_window0 (j : S1002x256.Idx) :
    scatter_S1002x256x256_S1_S1002x256_01_2_2_0.window j 0 = (j 0).val := rfl
private theorem col_window1 (j : S1002x256.Idx) :
    scatter_S1002x256x256_S1_S1002x256_01_2_2_0.window j 1 = (j 1).val := rfl
private theorem col_window2 (j : S1002x256.Idx) :
    scatter_S1002x256x256_S1_S1002x256_01_2_2_0.window j 2 = 0 := rfl

/-- A slab update `(m, p)` of the column scatter lands on `(n, r, q)` exactly when `m = n`, `p = r` and the column
    is the start. -/
private theorem col_lands (c : BitVec 32) (j : S1002x256.Idx) (n : Fin 1002) (r q : Fin 256) :
    scatter_S1002x256x256_S1_S1002x256_01_2_2_0.resultIdx? j (fun _ => c) = some (ix3 n r q) ↔
      (j 0).val = n.val ∧ (j 1).val = r.val ∧ c.toInt = q.val := by
  rw [resultIdx?_eq_some_iff]
  have e0 : ((ix3 n r q 0).val : Int) = n.val := rfl
  have e1 : ((ix3 n r q 1).val : Int) = r.val := rfl
  have e2 : ((ix3 n r q 2).val : Int) = q.val := rfl
  constructor
  · intro h
    have h0 := h 0
    have h1 := h 1
    have h2 := h 2
    rw [col_start0, col_window0, e0] at h0
    rw [col_start1, col_window1, e1] at h1
    rw [col_start2, col_window2, e2] at h2
    omega
  · rintro ⟨h0, h1, h2⟩ a
    match a with
    | ⟨0, _⟩ =>
      show scatter_S1002x256x256_S1_S1002x256_01_2_2_0.start j (fun _ => c) 0
        + (scatter_S1002x256x256_S1_S1002x256_01_2_2_0.window j 0 : Int) = ((ix3 n r q 0).val : Int)
      rw [col_start0, col_window0, e0]; omega
    | ⟨1, _⟩ =>
      show scatter_S1002x256x256_S1_S1002x256_01_2_2_0.start j (fun _ => c) 1
        + (scatter_S1002x256x256_S1_S1002x256_01_2_2_0.window j 1 : Int) = ((ix3 n r q 1).val : Int)
      rw [col_start1, col_window1, e1]; omega
    | ⟨2, _⟩ =>
      show scatter_S1002x256x256_S1_S1002x256_01_2_2_0.start j (fun _ => c) 2
        + (scatter_S1002x256x256_S1_S1002x256_01_2_2_0.window j 2 : Int) = ((ix3 n r q 2).val : Int)
      rw [col_start2, col_window2, e2]; omega

/-- The column scatter with every index the word `c`, which reads column `k`: column `k` of every frame is the
    slab, the other columns are the operand's. -/
private theorem col_scatter_apply (c : BitVec 32) (k : Nat) (hc : c.toInt = k) (x : S1002x256x256.Idx → α)
    (upd : S1002x256.Idx → α) (n : Fin 1002) (r q : Fin 256) :
    Host.scatter scatter_S1002x256x256_S1_S1002x256_01_2_2_0 (fun _ b => b) x (fun _ => c) upd (ix3 n r q)
      = if q.val = k then upd (ix2 n r) else x (ix3 n r q) := by
  split
  · next h =>
    refine scatter_set_hit _ x _ upd _ (ix2 n r) ((col_lands c _ n r q).2 ⟨rfl, rfl, by omega⟩) (fun j hj => ?_)
    have hh := (col_lands c j n r q).1 hj
    rw [eq_ix2 j]
    congr 1
    · exact Fin.ext hh.1
    · exact Fin.ext hh.2.1
  · next h =>
    refine scatter_set_miss _ x _ upd _ (fun j hj => h ?_)
    have hh := (col_lands c j n r q).1 hj
    omega

private theorem win_start0 (c : BitVec 32) (j : S1000x254x254.Idx) :
    scatter_S1000x256x256_S2_S1000x254x254_012_n_12_0.start j (fun _ => c) 0 = 0 := rfl
private theorem win_start1 (c : BitVec 32) (j : S1000x254x254.Idx) :
    scatter_S1000x256x256_S2_S1000x254x254_012_n_12_0.start j (fun _ => c) 1 = c.toInt := rfl
private theorem win_start2 (c : BitVec 32) (j : S1000x254x254.Idx) :
    scatter_S1000x256x256_S2_S1000x254x254_012_n_12_0.start j (fun _ => c) 2 = c.toInt := rfl
private theorem win_window0 (j : S1000x254x254.Idx) :
    scatter_S1000x256x256_S2_S1000x254x254_012_n_12_0.window j 0 = (j 0).val := rfl
private theorem win_window1 (j : S1000x254x254.Idx) :
    scatter_S1000x256x256_S2_S1000x254x254_012_n_12_0.window j 1 = (j 1).val := rfl
private theorem win_window2 (j : S1000x254x254.Idx) :
    scatter_S1000x256x256_S2_S1000x254x254_012_n_12_0.window j 2 = (j 2).val := rfl

/-- An update `(m, p, t)` of the window scatter lands on `(n, r, q)` exactly when `m = n` and `(r, q)` is `(p, t)`
    moved by the start. -/
private theorem win_lands (c : BitVec 32) (j : S1000x254x254.Idx) (n : Fin 1000) (r q : Fin 256) :
    scatter_S1000x256x256_S2_S1000x254x254_012_n_12_0.resultIdx? j (fun _ => c) = some (ix3 n r q) ↔
      (j 0).val = n.val ∧ c.toInt + (j 1).val = r.val ∧ c.toInt + (j 2).val = q.val := by
  rw [resultIdx?_eq_some_iff]
  have e0 : ((ix3 n r q 0).val : Int) = n.val := rfl
  have e1 : ((ix3 n r q 1).val : Int) = r.val := rfl
  have e2 : ((ix3 n r q 2).val : Int) = q.val := rfl
  constructor
  · intro h
    have h0 := h 0
    have h1 := h 1
    have h2 := h 2
    rw [win_start0, win_window0, e0] at h0
    rw [win_start1, win_window1, e1] at h1
    rw [win_start2, win_window2, e2] at h2
    omega
  · rintro ⟨h0, h1, h2⟩ a
    match a with
    | ⟨0, _⟩ =>
      show scatter_S1000x256x256_S2_S1000x254x254_012_n_12_0.start j (fun _ => c) 0
        + (scatter_S1000x256x256_S2_S1000x254x254_012_n_12_0.window j 0 : Int) = ((ix3 n r q 0).val : Int)
      rw [win_start0, win_window0, e0]; omega
    | ⟨1, _⟩ =>
      show scatter_S1000x256x256_S2_S1000x254x254_012_n_12_0.start j (fun _ => c) 1
        + (scatter_S1000x256x256_S2_S1000x254x254_012_n_12_0.window j 1 : Int) = ((ix3 n r q 1).val : Int)
      rw [win_start1, win_window1, e1]; omega
    | ⟨2, _⟩ =>
      show scatter_S1000x256x256_S2_S1000x254x254_012_n_12_0.start j (fun _ => c) 2
        + (scatter_S1000x256x256_S2_S1000x254x254_012_n_12_0.window j 2 : Int) = ((ix3 n r q 2).val : Int)
      rw [win_start2, win_window2, e2]; omega

/-- The window scatter with both start indices 1: the 254 × 254 update sits at offset (1, 1) of every frame, the
    border is the operand's. -/
private theorem win_scatter_apply (c : BitVec 32) (hc : c.toInt = 1) (x : S1000x256x256.Idx → α)
    (upd : S1000x254x254.Idx → α) (n : Fin 1000) (r q : Fin 256) :
    Host.scatter scatter_S1000x256x256_S2_S1000x254x254_012_n_12_0 (fun _ b => b) x (fun _ => c) upd (ix3 n r q)
      = if h : Cert.Wave.Inside r.val q.val then
          upd (ix3 n ⟨r.val - 1, by have := h.2.1; omega⟩ ⟨q.val - 1, by have := h.2.2.2; omega⟩)
        else x (ix3 n r q) := by
  split
  · next h =>
    obtain ⟨h1, h2, h3, h4⟩ := h
    refine scatter_set_hit _ x _ upd _ _ ((win_lands c _ n r q).2 ⟨rfl, ?_, ?_⟩) (fun j hj => ?_)
    · show c.toInt + ((r.val - 1 : Nat) : Int) = r.val
      omega
    · show c.toInt + ((q.val - 1 : Nat) : Int) = q.val
      omega
    · have hh := (win_lands c j n r q).1 hj
      rw [eq_ix3 j]
      congr 1
      · exact Fin.ext hh.1
      · exact Fin.ext (by show (j 1).val = r.val - 1; omega)
      · exact Fin.ext (by show (j 2).val = q.val - 1; omega)
  · next h =>
    refine scatter_set_miss _ x _ upd _ (fun j hj => h ?_)
    have hh := (win_lands c j n r q).1 hj
    have l1 : (j 1).val < 254 := (j 1).isLt
    have l2 : (j 2).val < 254 := (j 2).isLt
    refine ⟨?_, ?_, ?_, ?_⟩ <;> omega

end Records

section Stages

open Cert.Wave

/-! The scatters' index operands: each holds one word everywhere. -/

private theorem v1_eq : val_main_v1 (F := Ideal) = fun _ => 0#32 := by
  funext i; rw [val_main_v1_apply, val_main_c_apply]
private theorem v4_eq : val_main_v4 (F := Ideal) = fun _ => 255#32 := by
  funext i; rw [val_main_v4_apply, val_main_c_0_apply]
private theorem v7_eq : val_main_v7 (F := Ideal) = fun _ => 0#32 := by
  funext i; rw [val_main_v7_apply, val_main_c_2_apply]
private theorem v10_eq : val_main_v10 (F := Ideal) = fun _ => 255#32 := by
  funext i; rw [val_main_v10_apply, val_main_c_4_apply]

/-- The two start indices of the last scatter, joined: both are 1. -/
private theorem v41_eq : val_main_v41 (F := Ideal) = fun _ => 1#32 := by
  funext i
  unfold val_main_v41
  by_cases h : (i 0).val = 0
  · rw [concatenate_pair_apply_left (0 : Fin S2.rank) _ _ concatenates_S1_S1_S2_d0 i rfl (ix1 ⟨0, Nat.one_pos⟩)
      (fun b => by match b with | ⟨0, _⟩ => exact h.symm)]
    rw [val_main_v39_apply, val_main_c_12_apply]
  · have l : (i 0).val < 2 := (i 0).isLt
    rw [concatenate_pair_apply_right (0 : Fin S2.rank) _ _ concatenates_S1_S1_S2_d0 i rfl rfl (ix1 ⟨0, Nat.one_pos⟩)
      (fun b hb => by match b with | ⟨0, _⟩ => exact absurd rfl hb)
      (by show 0 + 1 = (i 0).val; omega)]
    rw [val_main_v40_apply, val_main_c_13_apply]

/-! The zero slabs and the zero stack. -/

private theorem v2_at (i : S1002x256.Idx) : val_main_v2 (F := Ideal) i = zeroE := by
  rw [val_main_v2_apply, val_main_cst_apply]; rfl
private theorem v5_at (i : S1002x256.Idx) : val_main_v5 (F := Ideal) i = zeroE := by
  rw [val_main_v5_apply, val_main_cst_1_apply]; rfl
private theorem v8_at (i : S1002x256.Idx) : val_main_v8 (F := Ideal) i = zeroE := by
  rw [val_main_v8_apply, val_main_cst_3_apply]; rfl
private theorem v11_at (i : S1002x256.Idx) : val_main_v11 (F := Ideal) i = zeroE := by
  rw [val_main_v11_apply, val_main_cst_5_apply]; rfl
private theorem v38_at (i : S1000x256x256.Idx) : val_main_v38 (F := Ideal) i = zeroE := by
  rw [val_main_v38_apply, val_main_cst_11_apply]; rfl

/-- A frame of the stack at a pixel inside the array is the stack's element. -/
private theorem frameOf_at (u : SIn.Idx → EReal) (n : Fin 1002) (r q : Fin 256) :
    frameOf u n.val r.val q.val = u (ix3 n r q) := by
  unfold frameOf
  rw [dif_pos ⟨n.isLt, r.isLt, q.isLt⟩]

/-- After the four border scatters every frame has its border zeroed. -/
private theorem v12_at (x0 : (⟨S1002x1x256x256, .f32⟩ : BufTy).Contents (Elt Ideal)) (n : Fin 1002) (r q : Fin 256) :
    val_main_v12 (F := Ideal) x0 (ix3 n r q) = zf (frameOf (val_main_v0 (F := Ideal) x0) n.val) r.val q.val := by
  unfold val_main_v12 val_main_v9 val_main_v6 val_main_v3 zf
  rw [v1_eq, v4_eq, v7_eq, v10_eq, frameOf_at]
  generalize val_main_v0 (F := Ideal) x0 = y
  rw [col_scatter_apply 255#32 255 (by decide), col_scatter_apply 0#32 0 (by decide),
    row_scatter_apply 255#32 255 (by decide), row_scatter_apply 0#32 0 (by decide),
    v2_at, v5_at, v8_at, v11_at]
  have hr := r.isLt
  have hq := q.isLt
  split_ifs with h1 h2 h3 h4 h5 <;> first | rfl | (exfalso; unfold Inside at *; omega)

end Stages

section Stencil

open Cert.Wave

variable (x0 : (⟨S1002x1x256x256, .f32⟩ : BufTy).Contents (Elt Ideal))

/-! The two stacks of 1000 frames: the current frames (stack frames 1 … 1000) and the frames before (0 … 999). -/

private theorem v13_at (n : Fin 1000) (r q : Fin 256) :
    val_main_v13 (F := Ideal) x0 (ix3 n r q)
      = zf (frameOf (val_main_v0 (F := Ideal) x0) (n.val + 1)) r.val q.val := by
  rw [val_main_v13_apply]
  have e : idx_main_v13 (ix3 n r q) = ix3 (⟨n.val + 1, by have := n.isLt; omega⟩ : Fin 1002) r q := by
    funext a
    match a with
    | ⟨0, _⟩ => exact Fin.ext (by show 1 + n.val = n.val + 1; omega)
    | ⟨1, _⟩ => rfl
    | ⟨2, _⟩ => rfl
  rw [e, v12_at]

private theorem v14_at (n : Fin 1000) (r q : Fin 256) :
    val_main_v14 (F := Ideal) x0 (ix3 n r q)
      = zf (frameOf (val_main_v0 (F := Ideal) x0) n.val) r.val q.val := by
  rw [val_main_v14_apply]
  have e : idx_main_v14 (ix3 n r q) = ix3 (⟨n.val, by have := n.isLt; omega⟩ : Fin 1002) r q := by
    funext a
    match a with
    | ⟨0, _⟩ => rfl
    | ⟨1, _⟩ => rfl
    | ⟨2, _⟩ => rfl
  rw [e, v12_at]

/-! The shifted 254 × 254 slices of the two stacks, at interior pixel `(r, q)` (which is pixel `(r + 1, q + 1)` of the
    frame): the centre of the current frame and of the frame before, and the current frame's four neighbours. -/

private theorem v15_at (n : Fin 1000) (r q : Fin 254) :
    val_main_v15 (F := Ideal) x0 (ix3 n r q)
      = zf (frameOf (val_main_v0 (F := Ideal) x0) (n.val + 1)) (r.val + 1) (q.val + 1) := by
  rw [val_main_v15_apply]
  have e : idx_main_v15 (ix3 n r q) = ix3 n (⟨r.val + 1, by have := r.isLt; omega⟩ : Fin 256)
      (⟨q.val + 1, by have := q.isLt; omega⟩ : Fin 256) := by
    funext a
    match a with
    | ⟨0, _⟩ => rfl
    | ⟨1, _⟩ => exact Fin.ext (by show 1 + r.val = r.val + 1; omega)
    | ⟨2, _⟩ => exact Fin.ext (by show 1 + q.val = q.val + 1; omega)
  rw [e, v13_at]

private theorem v18_at (n : Fin 1000) (r q : Fin 254) :
    val_main_v18 (F := Ideal) x0 (ix3 n r q)
      = zf (frameOf (val_main_v0 (F := Ideal) x0) n.val) (r.val + 1) (q.val + 1) := by
  rw [val_main_v18_apply]
  have e : idx_main_v18 (ix3 n r q) = ix3 n (⟨r.val + 1, by have := r.isLt; omega⟩ : Fin 256)
      (⟨q.val + 1, by have := q.isLt; omega⟩ : Fin 256) := by
    funext a
    match a with
    | ⟨0, _⟩ => rfl
    | ⟨1, _⟩ => exact Fin.ext (by show 1 + r.val = r.val + 1; omega)
    | ⟨2, _⟩ => exact Fin.ext (by show 1 + q.val = q.val + 1; omega)
  rw [e, v14_at]

private theorem v20_at (n : Fin 1000) (r q : Fin 254) :
    val_main_v20 (F := Ideal) x0 (ix3 n r q)
      = zf (frameOf (val_main_v0 (F := Ideal) x0) (n.val + 1)) (r.val + 1 + 1) (q.val + 1) := by
  rw [val_main_v20_apply]
  have e : idx_main_v20 (ix3 n r q) = ix3 n (⟨r.val + 1 + 1, by have := r.isLt; omega⟩ : Fin 256)
      (⟨q.val + 1, by have := q.isLt; omega⟩ : Fin 256) := by
    funext a
    match a with
    | ⟨0, _⟩ => rfl
    | ⟨1, _⟩ => exact Fin.ext (by show 2 + r.val = r.val + 1 + 1; omega)
    | ⟨2, _⟩ => exact Fin.ext (by show 1 + q.val = q.val + 1; omega)
  rw [e, v13_at]

private theorem v24_at (n : Fin 1000) (r q : Fin 254) :
    val_main_v24 (F := Ideal) x0 (ix3 n r q)
      = zf (frameOf (val_main_v0 (F := Ideal) x0) (n.val + 1)) r.val (q.val + 1) := by
  rw [val_main_v24_apply]
  have e : idx_main_v24 (ix3 n r q) = ix3 n (⟨r.val, by have := r.isLt; omega⟩ : Fin 256)
      (⟨q.val + 1, by have := q.isLt; omega⟩ : Fin 256) := by
    funext a
    match a with
    | ⟨0, _⟩ => rfl
    | ⟨1, _⟩ => rfl
    | ⟨2, _⟩ => exact Fin.ext (by show 1 + q.val = q.val + 1; omega)
  rw [e, v13_at]

private theorem v29_at (n : Fin 1000) (r q : Fin 254) :
    val_main_v29 (F := Ideal) x0 (ix3 n r q)
      = zf (frameOf (val_main_v0 (F := Ideal) x0) (n.val + 1)) (r.val + 1) (q.val + 1 + 1) := by
  rw [val_main_v29_apply]
  have e : idx_main_v29 (ix3 n r q) = ix3 n (⟨r.val + 1, by have := r.isLt; omega⟩ : Fin 256)
      (⟨q.val + 1 + 1, by have := q.isLt; omega⟩ : Fin 256) := by
    funext a
    match a with
    | ⟨0, _⟩ => rfl
    | ⟨1, _⟩ => exact Fin.ext (by show 1 + r.val = r.val + 1; omega)
    | ⟨2, _⟩ => exact Fin.ext (by show 2 + q.val = q.val + 1 + 1; omega)
  rw [e, v13_at]

private theorem v33_at (n : Fin 1000) (r q : Fin 254) :
    val_main_v33 (F := Ideal) x0 (ix3 n r q)
      = zf (frameOf (val_main_v0 (F := Ideal) x0) (n.val + 1)) (r.val + 1) q.val := by
  rw [val_main_v33_apply]
  have e : idx_main_v33 (ix3 n r q) = ix3 n (⟨r.val + 1, by have := r.isLt; omega⟩ : Fin 256)
      (⟨q.val, by have := q.isLt; omega⟩ : Fin 256) := by
    funext a
    match a with
    | ⟨0, _⟩ => rfl
    | ⟨1, _⟩ => exact Fin.ext (by show 1 + r.val = r.val + 1; omega)
    | ⟨2, _⟩ => rfl
  rw [e, v13_at]

/-! The broadcast literals: 2 (three times) and κ (twice). -/

private theorem v16_at (i : S1000x254x254.Idx) : val_main_v16 (F := Ideal) i = twoE := by
  rw [val_main_v16_apply, val_main_cst_6_apply]; rfl
private theorem v21_at (i : S1000x254x254.Idx) : val_main_v21 (F := Ideal) i = twoE := by
  rw [val_main_v21_apply, val_main_cst_7_apply]; rfl
private theorem v30_at (i : S1000x254x254.Idx) : val_main_v30 (F := Ideal) i = twoE := by
  rw [val_main_v30_apply, val_main_cst_9_apply]; rfl
private theorem v26_at (i : S1000x254x254.Idx) : val_main_v26 (F := Ideal) i = kappaE := by
  rw [val_main_v26_apply, val_main_cst_8_apply]; rfl
private theorem v35_at (i : S1000x254x254.Idx) : val_main_v35 (F := Ideal) i = kappaE := by
  rw [val_main_v35_apply, val_main_cst_10_apply]; rfl

/-- The interior of the result: the stencil, in the reference's grouping, at pixel `(r + 1, q + 1)`. -/
private theorem v37_at (n : Fin 1000) (r q : Fin 254) :
    val_main_v37 (F := Ideal) x0 (ix3 n r q)
      = stFR (frameOf (val_main_v0 (F := Ideal) x0) n.val) (frameOf (val_main_v0 (F := Ideal) x0) (n.val + 1))
          (r.val + 1) (q.val + 1) := by
  have hin : Inside (r.val + 1) (q.val + 1) := by
    have := r.isLt; have := q.isLt; unfold Inside; omega
  rw [val_main_v37_apply, val_main_v28_apply, val_main_v36_apply, val_main_v19_apply, val_main_v27_apply,
    val_main_v17_apply, val_main_v25_apply, val_main_v23_apply, val_main_v22_apply, val_main_v34_apply,
    val_main_v32_apply, val_main_v31_apply,
    v16_at, v21_at, v30_at, v26_at, v35_at, v15_at, v18_at, v20_at, v24_at, v29_at, v33_at]
  unfold stFR
  rw [if_pos hin, Nat.add_sub_cancel, Nat.add_sub_cancel]
  rfl

/-- The last scatter's result at frame `n`, pixel `(r, q)`: the stencil of stack frames `n` and `n + 1`. -/
private theorem v42_at (n : Fin 1000) (r q : Fin 256) :
    val_main_v42 (F := Ideal) x0 (ix3 n r q)
      = stFR (frameOf (val_main_v0 (F := Ideal) x0) n.val) (frameOf (val_main_v0 (F := Ideal) x0) (n.val + 1))
          r.val q.val := by
  unfold val_main_v42
  rw [v41_eq, win_scatter_apply 1#32 (by decide)]
  split
  · next h =>
    rw [v37_at]
    show stFR _ _ (r.val - 1 + 1) (q.val - 1 + 1) = _
    rw [Nat.sub_add_cancel h.1, Nat.sub_add_cancel h.2.2.1]
  · next h =>
    rw [v38_at]
    unfold stFR
    rw [if_neg h]

end Stencil

/-- The 1000 × 256 × 256 stack the reference broadcasts into its result is the stencil of the stacked frames. -/
theorem val_main_v42_eq (x0 : (⟨S1002x1x256x256, .f32⟩ : BufTy).Contents (Elt Ideal)) :
    (val_main_v42 (F := Ideal) x0 : S1000x256x256.Idx → EReal) = Cert.Wave.outR (val_main_v0 (F := Ideal) x0) := by
  funext i
  obtain ⟨n, r, q, rfl⟩ : ∃ (n : Fin 1000) (r q : Fin 256), i = ix3 n r q := ⟨i 0, i 1, i 2, eq_ix3 i⟩
  rw [v42_at]
  rfl

end Cert.ReferenceIdeal.RefValue

end
-- ==== Proof.K.Run.lean ====
import proofs.«164955_j9826885174019_1_alg».proof.Proof.Gen.Kernel.Skeleton
import Idealize.ShloMosaic.Lib.Tactic
import Idealize.ShloMosaic.Lib.Pipeline.Kit
import Idealize.ShloMosaic.Lib.Pipeline.Frame

/-!
The kernel body run once, at symbolic staging buffers.

The body reads frames `j` and `j + 1` of the chunk buffer (the last pair takes its second frame from the
one-frame buffer) and stores one stencil frame into frame `j` of the output buffer, for `j = 0 … 24`.
The run is stated over arbitrary whole buffers of the three shapes: from the two input buffers at given
contents and the output buffer at anything, the body ends with the inputs untouched and the output buffer
overwritten by a list of pieces, one per store, which the run itself finds.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's 25 stores leave in the output buffer (last store first), with the proof that the
    body, started from the chunk buffer at `x0`, the next-frame buffer at `x1` and the output buffer at any
    contents, runs to its end with the two inputs as they were and the output buffer overwritten by those
    pieces. -/
noncomputable def kernelRun (c : Dev nD) (i : grid0.Coords)
    (arg1 : Memref sig .tc .vmem S25x256x256 .f32) (harg1 : arg1.IsWhole)
    (arg2 : Memref sig .tc .vmem S1x256x256 .f32) (harg2 : arg2.IsWhole)
    (arg3 : Memref sig .tc .vmem S25x256x256 .f32) (harg3 : arg3.IsWhole)
    (x0 : Vec F S25x256x256 .f32) (x1 : Vec F S1x256x256 .f32) :
    { L : List (View.Piece (Elt F) S25x256x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__kernel i arg1 harg1 arg2 harg2 arg3 harg3) K } := by
  refine ⟨?_, fun E K => ?run⟩
  case run =>
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec_parts
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.K.Data.lean ====
import proofs.«164955_j9826885174019_1_alg».proof.Proof.K.Run
import proofs.«164955_j9826885174019_1_alg».proof.Proof.Gen.Kernel.Launch
import proofs.«164955_j9826885174019_1_alg».proof.Proof.Gen.Kernel.Points
import Idealize.ShloMosaic.Lib.Pipeline.FrameBody
import Idealize.ShloMosaic.Lib.Ring
import Idealize.ShloMosaic.Lib.Pipeline.Regions

/-!
The pipeline's proof data and the body obligation.

The stacked frames `u` (the first argument with its unit axis dropped, written by the one host operation
before the region) are read by two windows: the chunk window, whose block at point `t` is frames
`25 t … 25 t + 24`, and the next-frame window, whose block is the single frame `25 (t + 1)`. The result
window's block at point `t` is frames `25 t … 25 t + 24` of the result.

After the body at point `t` the two input buffers hold their blocks and the result's buffer holds the
contents the body's 25 stores leave (the canonical contents of the run's pieces, which tile the buffer).
The chunk window is the only one whose blocks do not tile their array (1002 frames by 25), but no block of
the 40 grid points reaches past the array's end, so a fetch fills the whole buffer at every point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, -/
abbrev V₀ (c : Dev nD) : Valuation τ sig (Elt F) := fun b => m (c, b)
/-- and when the region is entered: the host operation before it has run. -/
abbrev V (c : Dev nD) (b : Ref sig .tc) : Buf (Elt F) ((c : Thread nD τ).loc b) := StableHlo.after hostOps0 (V₀ m c) b

/-- The staging buffers the pipeline calls the body with at point `t`. -/
abbrev ms0 (t : Fin cfg0.N) : Memref sig .tc .vmem S25x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S25x256x256 .f32 := win0_2.stage (cfg0.slots t 2)
abbrev hs2 (t : Fin cfg0.N) : (ms2 t).IsWhole := hstage0_2 ((cfg0.slots t 2).cast nbuf0_2)

/-- The chunk of 25 frames the body reads at point `t`, -/
def blk0 (c : Dev nD) (t : Fin cfg0.N) : Vec F S25x256x256 .f32 :=
  win0_0.fill (grid0.coords t) (fun _ => Scalar.ofBits .f32 0x00000000#32) ((win0_0.blk t).view.read (Elt F) (V m c main_v0))
/-- the frame that follows the chunk, -/
def blk1 (c : Dev nD) (t : Fin cfg0.N) : Vec F S1x256x256 .f32 :=
  win0_1.fill (grid0.coords t) (fun _ => Scalar.ofBits .f32 0x00000000#32) ((win0_1.blk t).view.read (Elt F) (V m c main_v0))
/-- and the 25 result frames its stores leave. -/
def outBlk (c : Dev nD) (t : Fin cfg0.N) : Vec F S25x256x256 .f32 :=
  View.canon (kernelRun c (grid0.coords t) (ms0 t) (hs0 t) (ms1 t) (hs1 t) (ms2 t) (hs2 t) (blk0 m c t) (blk1 m c t)).1

/-- The 25 stores write 25 distinct frames: together they cover the result's buffer. -/
theorem cover_out (c : Dev nD) (i : grid0.Coords)
    (arg1 : Memref sig .tc .vmem S25x256x256 .f32) (harg1 : arg1.IsWhole)
    (arg2 : Memref sig .tc .vmem S1x256x256 .f32) (harg2 : arg2.IsWhole)
    (arg3 : Memref sig .tc .vmem S25x256x256 .f32) (harg3 : arg3.IsWhole)
    (x0 : Vec F S25x256x256 .f32) (x1 : Vec F S1x256x256 .f32) (y : S25x256x256.Idx) :
    ∃ pc ∈ (kernelRun c i arg1 harg1 arg2 harg2 arg3 harg3 x0 x1).1, y ∈ pc.1.set :=
  View.cover_of_tiledL (kernelRun c i arg1 harg1 arg2 harg2 arg3 harg3 x0 x1).1 S1x256x256.size (by sl_kernel_rfl) y

/-- The proof data on core `c`: the arrays as the region finds them; after the body the input buffers at
    their blocks and the result's at what the stores leave; no invariant; nothing owed; the stacked frames'
    array shared half and half between the two windows that read it. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => outBlk m c t
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = blk0 m c t := by dsimp only [dats]
theorem after_1 (c : Dev nD) (t : Fin cfg0.N) : (dats m 0 c).after 1 t = blk1 m c t := by dsimp only [dats]
theorem after_2 (c : Dev nD) (t : Fin cfg0.N) : (dats m 0 c).after 2 t = outBlk m c t := by dsimp only [dats]

/-- No chunk of the 40 reaches past frame 1001: no fetch of the chunk window is cut. -/
theorem clip0_none : ∀ (t : Fin cfg0.N) (a : Fin 3), (cfg0.win 0).clip (cfg0.grid.coords t) a = none :=
  (by decide +kernel : ∀ (t : Fin grid0.N) (a : Fin 3), win0_0.clip (grid0.coords t) a = none)

/-- What the body finds in the chunk buffer: the chunk, whatever the buffer held before the fetch. -/
theorem before_0 (c : Dev nD) (t : Fin cfg0.N) (d) : (dats m 0 c).before 0 t d = blk0 m c t := by
  unfold Dat.before; rw [if_pos (fetch0_0 t)]
  exact (dats m 0 c).fetched_of_clip_none 0 t (clip0_none t) d _
/-- What it finds in the next-frame buffer: that frame. -/
theorem before_1 (c : Dev nD) (t : Fin cfg0.N) (d) : (dats m 0 c).before 1 t d = blk1 m c t := by
  unfold Dat.before; rw [if_pos (fetch0_1 t)]
  exact (dats m 0 c).fetched_of_clip_none 1 t (fun _ => rfl) d _
/-- The result's buffer is fresh at every point: the block was written back at the point before. -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the chunk buffer stated on the part a fetch fills (all of it), the other two exactly. -/
def bodyPost (c : Dev nD) (t : Fin cfg0.N) : sProp 𝕄 :=
  iprop((dats m 0 c).Φ t.succ ∗ (dats m 0 c).owesAt () t.succ
    ∗ (∃ d, owns (c : Thread nD τ) (ms0 t) fullShare
        (win0_0.fill (grid0.coords t) d (win0_0.cut (grid0.coords t) ((dats m 0 c).after 0 t))))
    ∗ owns (c : Thread nD τ) (ms1 t) fullShare ((dats m 0 c).after 1 t)
    ∗ owns (c : Thread nD τ) (ms2 t) fullShare ((dats m 0 c).after 2 t))

set_option maxHeartbeats 800000 in
/-- The body at any point: the input buffers hold their blocks, the result's buffer anything; the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  unfold outBlk
  iintro ⟨HΦ, Ho, ⟨%d0, H0⟩, ⟨%d1, H1⟩, ⟨%d2, H2⟩⟩
  iapply ((kernelRun c (grid0.coords t) (ms0 t) (hs0 t) (ms1 t) (hs1 t) (ms2 t) (hs2 t) (blk0 m c t) (blk1 m c t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]
  · iexists (blk0 m c t); rw [win0_0.fill_cut]; iexact H0
  isplitl [H1]; · iexact H1
  unfold owns; iexists _; isplitr
  swap; · iexact H2
  ipureintro; exact View.read_writes_eq_canon _ _ _ (cover_out c _ _ _ _ _ _ _ _ _)

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.Kernel.Hand

end
-- ==== Proof.K.Launch.lean ====
import proofs.«164955_j9826885174019_1_alg».proof.Proof.K.Data
import Idealize.ShloMosaic.Lib.Pipeline.Regions
import Idealize.ShloMosaic.Lib.Pipeline.Frame

/-!
The launch: @main as a host stretch, the kernel region, a host stretch.

@main drops the unit axis of the first argument (one host operation), runs the kernel region, and puts a unit
axis back on the region's result (one host operation). The region's two input windows read ONE array, the
stacked frames: at the region's entry that array, held whole, is split into two half shares, one per
window; at the exit the two halves, still at the entry contents (an input array is never written), are
joined again. The run's conclusion: every weakly fair execution ends, the result array of the region holds
what the write-backs leave, the final array is its broadcast, and the two arguments are as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owing nothing. -/
abbrev R (c : Dev nD) : sProp 𝕄 := iprop(∃ W, owes (c : Thread nD τ) (0 : CellTallies nD τ sig Unit) W)

/-- A core's unscoped buffers, one by one: the stacked frames, the region's result, the two arguments, the final
    result. -/
theorem unscopedBufs_eq (c : Dev nD) (X : (b : Ref sig .tc) → Buf (Elt F) ((c : Thread nD τ).loc b)) :
    (unscopedBufs c X : sProp 𝕄)
      = iprop(((((c : Thread nD τ).loc main_v0) ↦{fullShare} X main_v0) ∗ (((c : Thread nD τ).loc main_v1) ↦{fullShare} X main_v1))
          ∗ ((((c : Thread nD τ).loc main_arg0) ↦{fullShare} X main_arg0) ∗ (((c : Thread nD τ).loc main_arg1) ↦{fullShare} X main_arg1)
            ∗ (((c : Thread nD τ).loc main_v2) ↦{fullShare} X main_v2))) := by
  rw [Pipeline.unscopedBufs_split₀ cfgs 0 winFacts₀0.arr_unscoped c X, unscopedRest0_eq]
  unfold Pipeline.arrBufs
  rw [show Finset.univ.image (Pipeline.arrRef (cfgs (0 : Fin 1)).spec) = {main_v0, main_v1} from by decide,
    bigSep_insert (by decide), bigSep_singleton]
  rfl

/-- The proof data's arrays, one by one: the stacked frames twice, at the two half shares, and the region's result. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

/-- The stacked frames, held whole, are the two half shares at the same contents, and back. -/
theorem frames_split (c : Dev nD) (f : Buf (Elt F) ((c : Thread nD τ).loc main_v0)) :
    ((((c : Thread nD τ).loc main_v0) ↦{fullShare} f : sProp 𝕄))
      ⊣⊢ iprop((((c : Thread nD τ).loc main_v0) ↦{fullShare.left} f) ∗ (((c : Thread nD τ).loc main_v0) ↦{fullShare.right} f)) :=
  pointsTo_share (PosShare.mem_left_op_right fullShare)

/-- The buffers when the region is left: as it found them, but the region's result at what the write-backs leave. -/
def W₁ (c : Dev nD) : Valuation τ sig (Elt F) :=
  Function.update (StableHlo.after hostOps0 (V₀ m c)) (Proc.devRef .tc main_v1) ((dats m 0 c).arrAt 2 cfg0.N)

theorem W₁_main_v1 (c : Dev nD) : W₁ m c (Proc.devRef .tc main_v1) = (dats m 0 c).arrAt 2 cfg0.N := by
  unfold W₁; exact Function.update_self ..
theorem W₁_of_ne (c : Dev nD) (b : Ref sig .tc) (hb : b ≠ main_v1) : W₁ m c (Proc.devRef .tc b) = V m c b := by
  unfold W₁; exact Function.update_of_ne (StableHlo.devRef_ne_of_ne hb) ..

/-- The host stretch before the region. -/
def seg0 : Pipeline.HostSeg (Name := ℕ) (U := UR sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The host stretch after it. -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m) R

/-- What bypasses the region: the two arguments and the final result's buffer. -/
abbrev Zc (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v2) ↦{fullShare} V m c main_v2))

set_option backward.isDefEq.respectTransparency.types false in
/-- The region: entered from what the first stretch left, the stacked frames split between the two windows that read
    them; left with the halves joined again and the result array at its final contents. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := body_obligation m c
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X c := iprop(emp)
  Y c := iprop(emp)
  Z c := Zc m c
  hentry c := by
    rw [show StableHlo.held (c : Thread nD τ) (Pipeline.ucRefs τ sig) (StableHlo.after hostOps0 (V₀ m c)) = unscopedBufs c (V m c) from (Pipeline.unscopedBufs_held c _).symm,
      unscopedBufs_eq, arrays_eq3]
    iintro ⟨⟨⟨⟨H0, H1⟩, HZ⟩, HO⟩, -, -⟩
    ihave H0 := (frames_split c _).1 $$ H0
    icases H0 with ⟨H0l, H0r⟩
    imodintro
    isplitl [H0l H0r H1]
    · isplitl [H0l]; · iexact H0l
      isplitl [H0r]; · iexact H0r
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = iprop(emp) from rfl]
    iintro -; iempintro
  hout c := by
    rw [Pipeline.ownSems0_none, scopedRest0_eq]
    iintro -
    isplitr; · iempintro
    isplitr <;> iempintro
  hexit c := by
    rw [arrays_eq3, show StableHlo.held (c : Thread nD τ) (Pipeline.ucRefs τ sig) (W₁ m c) = unscopedBufs c (fun b => W₁ m c (Proc.devRef .tc b)) from (Pipeline.unscopedBufs_held c _).symm,
      unscopedBufs_eq, W₁_main_v1, W₁_of_ne m c main_v0 (by decide), W₁_of_ne m c main_arg0 (by decide), W₁_of_ne m c main_arg1 (by decide),
      W₁_of_ne m c main_v2 (by decide),
      show (dats m 0 c).arrAt 0 cfg0.N = V m c main_v0 from ((dats m 0 c).arrAt_in 0 rfl _).trans (A_eq m c 0),
      show (dats m 0 c).arrAt 1 cfg0.N = V m c main_v0 from ((dats m 0 c).arrAt_in 1 rfl _).trans (A_eq m c 1)]
    iintro ⟨⟨H0l, H0r, H1⟩, HO, -, HZ⟩
    ihave H0 := (frames_split c _).2 $$ [H0l H0r]
    · isplitl [H0l] <;> iassumption
    imodintro
    isplitr [HO]
    · isplitl [H0 H1]
      · isplitl [H0] <;> iassumption
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

/-- The buffers at the end: the stretch after the region has run. -/
abbrev Vend (c : Dev nD) : Valuation τ sig (Elt F) := StableHlo.after hostOps1 (W₁ m c)

/-- What every final memory satisfies: the five unscoped buffers at the end valuation. -/
def QC : PUnit × MemSt nD τ sig (Elt F) → Prop := fun r =>
  ∀ c : Dev nD, ∀ b : Ref sig .tc, b = main_v2 ∨ b = main_arg0 ∨ b = main_arg1 →
    r.2.mem ((c : Thread nD τ).loc b) = Vend m c (Proc.devRef .tc b)

set_option backward.isDefEq.respectTransparency.types false in
/-- For any values, from any memory with zero counters: every weakly fair execution of @main terminates, and the final
    result and the two arguments hold what the end valuation says. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b : Ref sig .tc, b = main_v2 ∨ b = main_arg0 ∨ b = main_arg1 →
      s.mem ((c : Thread nD τ).loc b) = Vend m c (Proc.devRef .tc b))
    (hfin := fun c s' => by
      rw [show StableHlo.held (c : Thread nD τ) (Pipeline.ucRefs τ sig) (Vend m c) = unscopedBufs c (fun b => Vend m c (Proc.devRef .tc b)) from (Pipeline.unscopedBufs_held c _).symm,
        unscopedBufs_eq]
      iintro ⟨⟨-, Ha0, Ha1, H2⟩, HSI⟩
      icombine HSI Ha0 gives %h0
      icombine HSI Ha1 gives %h1
      icombine HSI H2 gives %h2
      imodintro
      isplitr
      · ipureintro
        rintro b (rfl | rfl | rfl)
        · exact Buf.eq_of_forall_mem_univ h2
        · exact Buf.eq_of_forall_mem_univ h0
        · exact Buf.eq_of_forall_mem_univ h1
      iexact HSI)
    (hQ := fun _ h => h)

end Cert.Kernel.Hand

end
-- ==== Proof.K.End.lean ====
import proofs.«164955_j9826885174019_1_alg».proof.Proof.K.Launch
import Idealize.ShloMosaic.Lib.StableHlo.Run

/-!
What the final memory holds, read off the end valuation: the final result is the region's result array with a
unit axis put back, and the stretch after the region writes neither argument, which the stretch before it did
not write either.
-/

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The final result: the region's result array, broadcast along the new unit axis. -/
theorem Vend_main_v2 (c : Dev nD) :
    Vend m c (Proc.devRef .tc main_v2)
      = broadcastInDim S1000x1x256x256 ![0, 2, 3] bcast_S1000x256x256_S1000x1x256x256_0_2_3 ((dats m 0 c).arrAt 2 cfg0.N) := by
  show StableHlo.after hostOps1 (W₁ m c) (Proc.devRef .tc main_v2) = _
  after_results
  rw [W₁_main_v1]

/-- Neither host stretch writes an argument. -/
theorem Vend_main_arg0 (c : Dev nD) : Vend m c (Proc.devRef .tc main_arg0) = m ((c : Thread nD τ).loc main_arg0) := by
  show StableHlo.after hostOps1 (W₁ m c) (Proc.devRef .tc main_arg0) = _
  after_results
  rw [W₁_of_ne m c main_arg0 (by decide)]
  show StableHlo.after hostOps0 (V₀ m c) (Proc.devRef .tc main_arg0) = _
  after_results
theorem Vend_main_arg1 (c : Dev nD) : Vend m c (Proc.devRef .tc main_arg1) = m ((c : Thread nD τ).loc main_arg1) := by
  show StableHlo.after hostOps1 (W₁ m c) (Proc.devRef .tc main_arg1) = _
  after_results
  rw [W₁_of_ne m c main_arg1 (by decide)]
  show StableHlo.after hostOps0 (V₀ m c) (Proc.devRef .tc main_arg1) = _
  after_results

end Cert.Kernel.Hand

end
-- ==== Proof.KI.Run.lean ====
import proofs.«164955_j9826885174019_1_alg».proof.Proof.Gen.KernelIdeal.Skeleton
import Idealize.ShloMosaic.Lib.Tactic
import Idealize.ShloMosaic.Lib.Pipeline.Kit
import Idealize.ShloMosaic.Lib.Pipeline.Frame

/-!
The kernel body run once, at symbolic staging buffers.

The body reads frames `j` and `j + 1` of the chunk buffer (the last pair takes its second frame from the
one-frame buffer) and stores one stencil frame into frame `j` of the output buffer, for `j = 0 … 24`.
The run is stated over arbitrary whole buffers of the three shapes: from the two input buffers at given
contents and the output buffer at anything, the body ends with the inputs untouched and the output buffer
overwritten by a list of pieces, one per store, which the run itself finds.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's 25 stores leave in the output buffer (last store first), with the proof that the
    body, started from the chunk buffer at `x0`, the next-frame buffer at `x1` and the output buffer at any
    contents, runs to its end with the two inputs as they were and the output buffer overwritten by those
    pieces. -/
noncomputable def kernelRun (c : Dev nD) (i : grid0.Coords)
    (arg1 : Memref sig .tc .vmem S25x256x256 .f32) (harg1 : arg1.IsWhole)
    (arg2 : Memref sig .tc .vmem S1x256x256 .f32) (harg2 : arg2.IsWhole)
    (arg3 : Memref sig .tc .vmem S25x256x256 .f32) (harg3 : arg3.IsWhole)
    (x0 : Vec F S25x256x256 .f32) (x1 : Vec F S1x256x256 .f32) :
    { L : List (View.Piece (Elt F) S25x256x256 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__kernel i arg1 harg1 arg2 harg2 arg3 harg3) K } := by
  refine ⟨?_, fun E K => ?run⟩
  case run =>
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec_parts
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KI.Data.lean ====
import proofs.«164955_j9826885174019_1_alg».proof.Proof.KI.Run
import proofs.«164955_j9826885174019_1_alg».proof.Proof.Gen.KernelIdeal.Launch
import proofs.«164955_j9826885174019_1_alg».proof.Proof.Gen.KernelIdeal.Points
import Idealize.ShloMosaic.Lib.Pipeline.FrameBody
import Idealize.ShloMosaic.Lib.Ring
import Idealize.ShloMosaic.Lib.Pipeline.Regions

/-!
The pipeline's proof data and the body obligation.

The stacked frames `u` (the first argument with its unit axis dropped, written by the one host operation
before the region) are read by two windows: the chunk window, whose block at point `t` is frames
`25 t … 25 t + 24`, and the next-frame window, whose block is the single frame `25 (t + 1)`. The result
window's block at point `t` is frames `25 t … 25 t + 24` of the result.

After the body at point `t` the two input buffers hold their blocks and the result's buffer holds the
contents the body's 25 stores leave (the canonical contents of the run's pieces, which tile the buffer).
The chunk window is the only one whose blocks do not tile their array (1002 frames by 25), but no block of
the 40 grid points reaches past the array's end, so a fetch fills the whole buffer at every point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, -/
abbrev V₀ (c : Dev nD) : Valuation τ sig (Elt F) := fun b => m (c, b)
/-- and when the region is entered: the host operation before it has run. -/
abbrev V (c : Dev nD) (b : Ref sig .tc) : Buf (Elt F) ((c : Thread nD τ).loc b) := StableHlo.after hostOps0 (V₀ m c) b

/-- The staging buffers the pipeline calls the body with at point `t`. -/
abbrev ms0 (t : Fin cfg0.N) : Memref sig .tc .vmem S25x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S25x256x256 .f32 := win0_2.stage (cfg0.slots t 2)
abbrev hs2 (t : Fin cfg0.N) : (ms2 t).IsWhole := hstage0_2 ((cfg0.slots t 2).cast nbuf0_2)

/-- The chunk of 25 frames the body reads at point `t`, -/
def blk0 (c : Dev nD) (t : Fin cfg0.N) : Vec F S25x256x256 .f32 :=
  win0_0.fill (grid0.coords t) (fun _ => Scalar.ofBits .f32 0x00000000#32) ((win0_0.blk t).view.read (Elt F) (V m c main_v0))
/-- the frame that follows the chunk, -/
def blk1 (c : Dev nD) (t : Fin cfg0.N) : Vec F S1x256x256 .f32 :=
  win0_1.fill (grid0.coords t) (fun _ => Scalar.ofBits .f32 0x00000000#32) ((win0_1.blk t).view.read (Elt F) (V m c main_v0))
/-- and the 25 result frames its stores leave. -/
def outBlk (c : Dev nD) (t : Fin cfg0.N) : Vec F S25x256x256 .f32 :=
  View.canon (kernelRun c (grid0.coords t) (ms0 t) (hs0 t) (ms1 t) (hs1 t) (ms2 t) (hs2 t) (blk0 m c t) (blk1 m c t)).1

/-- The 25 stores write 25 distinct frames: together they cover the result's buffer. -/
theorem cover_out (c : Dev nD) (i : grid0.Coords)
    (arg1 : Memref sig .tc .vmem S25x256x256 .f32) (harg1 : arg1.IsWhole)
    (arg2 : Memref sig .tc .vmem S1x256x256 .f32) (harg2 : arg2.IsWhole)
    (arg3 : Memref sig .tc .vmem S25x256x256 .f32) (harg3 : arg3.IsWhole)
    (x0 : Vec F S25x256x256 .f32) (x1 : Vec F S1x256x256 .f32) (y : S25x256x256.Idx) :
    ∃ pc ∈ (kernelRun c i arg1 harg1 arg2 harg2 arg3 harg3 x0 x1).1, y ∈ pc.1.set :=
  View.cover_of_tiledL (kernelRun c i arg1 harg1 arg2 harg2 arg3 harg3 x0 x1).1 S1x256x256.size (by sl_kernel_rfl) y

/-- The proof data on core `c`: the arrays as the region finds them; after the body the input buffers at
    their blocks and the result's at what the stores leave; no invariant; nothing owed; the stacked frames'
    array shared half and half between the two windows that read it. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => outBlk m c t
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = blk0 m c t := by dsimp only [dats]
theorem after_1 (c : Dev nD) (t : Fin cfg0.N) : (dats m 0 c).after 1 t = blk1 m c t := by dsimp only [dats]
theorem after_2 (c : Dev nD) (t : Fin cfg0.N) : (dats m 0 c).after 2 t = outBlk m c t := by dsimp only [dats]

/-- No chunk of the 40 reaches past frame 1001: no fetch of the chunk window is cut. -/
theorem clip0_none : ∀ (t : Fin cfg0.N) (a : Fin 3), (cfg0.win 0).clip (cfg0.grid.coords t) a = none :=
  (by decide +kernel : ∀ (t : Fin grid0.N) (a : Fin 3), win0_0.clip (grid0.coords t) a = none)

/-- What the body finds in the chunk buffer: the chunk, whatever the buffer held before the fetch. -/
theorem before_0 (c : Dev nD) (t : Fin cfg0.N) (d) : (dats m 0 c).before 0 t d = blk0 m c t := by
  unfold Dat.before; rw [if_pos (fetch0_0 t)]
  exact (dats m 0 c).fetched_of_clip_none 0 t (clip0_none t) d _
/-- What it finds in the next-frame buffer: that frame. -/
theorem before_1 (c : Dev nD) (t : Fin cfg0.N) (d) : (dats m 0 c).before 1 t d = blk1 m c t := by
  unfold Dat.before; rw [if_pos (fetch0_1 t)]
  exact (dats m 0 c).fetched_of_clip_none 1 t (fun _ => rfl) d _
/-- The result's buffer is fresh at every point: the block was written back at the point before. -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the chunk buffer stated on the part a fetch fills (all of it), the other two exactly. -/
def bodyPost (c : Dev nD) (t : Fin cfg0.N) : sProp 𝕄 :=
  iprop((dats m 0 c).Φ t.succ ∗ (dats m 0 c).owesAt () t.succ
    ∗ (∃ d, owns (c : Thread nD τ) (ms0 t) fullShare
        (win0_0.fill (grid0.coords t) d (win0_0.cut (grid0.coords t) ((dats m 0 c).after 0 t))))
    ∗ owns (c : Thread nD τ) (ms1 t) fullShare ((dats m 0 c).after 1 t)
    ∗ owns (c : Thread nD τ) (ms2 t) fullShare ((dats m 0 c).after 2 t))

set_option maxHeartbeats 800000 in
/-- The body at any point: the input buffers hold their blocks, the result's buffer anything; the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  unfold outBlk
  iintro ⟨HΦ, Ho, ⟨%d0, H0⟩, ⟨%d1, H1⟩, ⟨%d2, H2⟩⟩
  iapply ((kernelRun c (grid0.coords t) (ms0 t) (hs0 t) (ms1 t) (hs1 t) (ms2 t) (hs2 t) (blk0 m c t) (blk1 m c t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]
  · iexists (blk0 m c t); rw [win0_0.fill_cut]; iexact H0
  isplitl [H1]; · iexact H1
  unfold owns; iexists _; isplitr
  swap; · iexact H2
  ipureintro; exact View.read_writes_eq_canon _ _ _ (cover_out c _ _ _ _ _ _ _ _ _)

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Hand

end
-- ==== Proof.KI.Launch.lean ====
import proofs.«164955_j9826885174019_1_alg».proof.Proof.KI.Data
import Idealize.ShloMosaic.Lib.Pipeline.Regions
import Idealize.ShloMosaic.Lib.Pipeline.Frame

/-!
The launch: @main as a host stretch, the kernel region, a host stretch.

@main drops the unit axis of the first argument (one host operation), runs the kernel region, and puts a unit
axis back on the region's result (one host operation). The region's two input windows read ONE array, the
stacked frames: at the region's entry that array, held whole, is split into two half shares, one per
window; at the exit the two halves, still at the entry contents (an input array is never written), are
joined again. The run's conclusion: every weakly fair execution ends, the result array of the region holds
what the write-backs leave, the final array is its broadcast, and the two arguments are as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owing nothing. -/
abbrev R (c : Dev nD) : sProp 𝕄 := iprop(∃ W, owes (c : Thread nD τ) (0 : CellTallies nD τ sig Unit) W)

/-- A core's unscoped buffers, one by one: the stacked frames, the region's result, the two arguments, the final
    result. -/
theorem unscopedBufs_eq (c : Dev nD) (X : (b : Ref sig .tc) → Buf (Elt F) ((c : Thread nD τ).loc b)) :
    (unscopedBufs c X : sProp 𝕄)
      = iprop(((((c : Thread nD τ).loc main_v0) ↦{fullShare} X main_v0) ∗ (((c : Thread nD τ).loc main_v1) ↦{fullShare} X main_v1))
          ∗ ((((c : Thread nD τ).loc main_arg0) ↦{fullShare} X main_arg0) ∗ (((c : Thread nD τ).loc main_arg1) ↦{fullShare} X main_arg1)
            ∗ (((c : Thread nD τ).loc main_v2) ↦{fullShare} X main_v2))) := by
  rw [Pipeline.unscopedBufs_split₀ cfgs 0 winFacts₀0.arr_unscoped c X, unscopedRest0_eq]
  unfold Pipeline.arrBufs
  rw [show Finset.univ.image (Pipeline.arrRef (cfgs (0 : Fin 1)).spec) = {main_v0, main_v1} from by decide,
    bigSep_insert (by decide), bigSep_singleton]
  rfl

/-- The proof data's arrays, one by one: the stacked frames twice, at the two half shares, and the region's result. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

/-- The stacked frames, held whole, are the two half shares at the same contents, and back. -/
theorem frames_split (c : Dev nD) (f : Buf (Elt F) ((c : Thread nD τ).loc main_v0)) :
    ((((c : Thread nD τ).loc main_v0) ↦{fullShare} f : sProp 𝕄))
      ⊣⊢ iprop((((c : Thread nD τ).loc main_v0) ↦{fullShare.left} f) ∗ (((c : Thread nD τ).loc main_v0) ↦{fullShare.right} f)) :=
  pointsTo_share (PosShare.mem_left_op_right fullShare)

/-- The buffers when the region is left: as it found them, but the region's result at what the write-backs leave. -/
def W₁ (c : Dev nD) : Valuation τ sig (Elt F) :=
  Function.update (StableHlo.after hostOps0 (V₀ m c)) (Proc.devRef .tc main_v1) ((dats m 0 c).arrAt 2 cfg0.N)

theorem W₁_main_v1 (c : Dev nD) : W₁ m c (Proc.devRef .tc main_v1) = (dats m 0 c).arrAt 2 cfg0.N := by
  unfold W₁; exact Function.update_self ..
theorem W₁_of_ne (c : Dev nD) (b : Ref sig .tc) (hb : b ≠ main_v1) : W₁ m c (Proc.devRef .tc b) = V m c b := by
  unfold W₁; exact Function.update_of_ne (StableHlo.devRef_ne_of_ne hb) ..

/-- The host stretch before the region. -/
def seg0 : Pipeline.HostSeg (Name := ℕ) (U := UR sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The host stretch after it. -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m) R

/-- What bypasses the region: the two arguments and the final result's buffer. -/
abbrev Zc (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v2) ↦{fullShare} V m c main_v2))

set_option backward.isDefEq.respectTransparency.types false in
/-- The region: entered from what the first stretch left, the stacked frames split between the two windows that read
    them; left with the halves joined again and the result array at its final contents. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := body_obligation m c
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X c := iprop(emp)
  Y c := iprop(emp)
  Z c := Zc m c
  hentry c := by
    rw [show StableHlo.held (c : Thread nD τ) (Pipeline.ucRefs τ sig) (StableHlo.after hostOps0 (V₀ m c)) = unscopedBufs c (V m c) from (Pipeline.unscopedBufs_held c _).symm,
      unscopedBufs_eq, arrays_eq3]
    iintro ⟨⟨⟨⟨H0, H1⟩, HZ⟩, HO⟩, -, -⟩
    ihave H0 := (frames_split c _).1 $$ H0
    icases H0 with ⟨H0l, H0r⟩
    imodintro
    isplitl [H0l H0r H1]
    · isplitl [H0l]; · iexact H0l
      isplitl [H0r]; · iexact H0r
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = iprop(emp) from rfl]
    iintro -; iempintro
  hout c := by
    rw [Pipeline.ownSems0_none, scopedRest0_eq]
    iintro -
    isplitr; · iempintro
    isplitr <;> iempintro
  hexit c := by
    rw [arrays_eq3, show StableHlo.held (c : Thread nD τ) (Pipeline.ucRefs τ sig) (W₁ m c) = unscopedBufs c (fun b => W₁ m c (Proc.devRef .tc b)) from (Pipeline.unscopedBufs_held c _).symm,
      unscopedBufs_eq, W₁_main_v1, W₁_of_ne m c main_v0 (by decide), W₁_of_ne m c main_arg0 (by decide), W₁_of_ne m c main_arg1 (by decide),
      W₁_of_ne m c main_v2 (by decide),
      show (dats m 0 c).arrAt 0 cfg0.N = V m c main_v0 from ((dats m 0 c).arrAt_in 0 rfl _).trans (A_eq m c 0),
      show (dats m 0 c).arrAt 1 cfg0.N = V m c main_v0 from ((dats m 0 c).arrAt_in 1 rfl _).trans (A_eq m c 1)]
    iintro ⟨⟨H0l, H0r, H1⟩, HO, -, HZ⟩
    ihave H0 := (frames_split c _).2 $$ [H0l H0r]
    · isplitl [H0l] <;> iassumption
    imodintro
    isplitr [HO]
    · isplitl [H0 H1]
      · isplitl [H0] <;> iassumption
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

/-- The buffers at the end: the stretch after the region has run. -/
abbrev Vend (c : Dev nD) : Valuation τ sig (Elt F) := StableHlo.after hostOps1 (W₁ m c)

/-- What every final memory satisfies: the five unscoped buffers at the end valuation. -/
def QC : PUnit × MemSt nD τ sig (Elt F) → Prop := fun r =>
  ∀ c : Dev nD, ∀ b : Ref sig .tc, b = main_v2 ∨ b = main_arg0 ∨ b = main_arg1 →
    r.2.mem ((c : Thread nD τ).loc b) = Vend m c (Proc.devRef .tc b)

set_option backward.isDefEq.respectTransparency.types false in
/-- For any values, from any memory with zero counters: every weakly fair execution of @main terminates, and the final
    result and the two arguments hold what the end valuation says. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b : Ref sig .tc, b = main_v2 ∨ b = main_arg0 ∨ b = main_arg1 →
      s.mem ((c : Thread nD τ).loc b) = Vend m c (Proc.devRef .tc b))
    (hfin := fun c s' => by
      rw [show StableHlo.held (c : Thread nD τ) (Pipeline.ucRefs τ sig) (Vend m c) = unscopedBufs c (fun b => Vend m c (Proc.devRef .tc b)) from (Pipeline.unscopedBufs_held c _).symm,
        unscopedBufs_eq]
      iintro ⟨⟨-, Ha0, Ha1, H2⟩, HSI⟩
      icombine HSI Ha0 gives %h0
      icombine HSI Ha1 gives %h1
      icombine HSI H2 gives %h2
      imodintro
      isplitr
      · ipureintro
        rintro b (rfl | rfl | rfl)
        · exact Buf.eq_of_forall_mem_univ h2
        · exact Buf.eq_of_forall_mem_univ h0
        · exact Buf.eq_of_forall_mem_univ h1
      iexact HSI)
    (hQ := fun _ h => h)

end Cert.KernelIdeal.Hand

end
-- ==== Proof.KI.End.lean ====
import proofs.«164955_j9826885174019_1_alg».proof.Proof.KI.Launch
import Idealize.ShloMosaic.Lib.StableHlo.Run

/-!
What the final memory holds, read off the end valuation: the final result is the region's result array with a
unit axis put back, and the stretch after the region writes neither argument, which the stretch before it did
not write either.
-/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The final result: the region's result array, broadcast along the new unit axis. -/
theorem Vend_main_v2 (c : Dev nD) :
    Vend m c (Proc.devRef .tc main_v2)
      = broadcastInDim S1000x1x256x256 ![0, 2, 3] bcast_S1000x256x256_S1000x1x256x256_0_2_3 ((dats m 0 c).arrAt 2 cfg0.N) := by
  show StableHlo.after hostOps1 (W₁ m c) (Proc.devRef .tc main_v2) = _
  after_results
  rw [W₁_main_v1]

/-- Neither host stretch writes an argument. -/
theorem Vend_main_arg0 (c : Dev nD) : Vend m c (Proc.devRef .tc main_arg0) = m ((c : Thread nD τ).loc main_arg0) := by
  show StableHlo.after hostOps1 (W₁ m c) (Proc.devRef .tc main_arg0) = _
  after_results
  rw [W₁_of_ne m c main_arg0 (by decide)]
  show StableHlo.after hostOps0 (V₀ m c) (Proc.devRef .tc main_arg0) = _
  after_results
theorem Vend_main_arg1 (c : Dev nD) : Vend m c (Proc.devRef .tc main_arg1) = m ((c : Thread nD τ).loc main_arg1) := by
  show StableHlo.after hostOps1 (W₁ m c) (Proc.devRef .tc main_arg1) = _
  after_results
  rw [W₁_of_ne m c main_arg1 (by decide)]
  show StableHlo.after hostOps0 (V₀ m c) (Proc.devRef .tc main_arg1) = _
  after_results

end Cert.KernelIdeal.Hand

end
-- ==== Proof.KValue.BlockStencil.lean ====
import proofs.«164955_j9826885174019_1_alg».proof.Proof.Gen.KernelIdeal.Skeleton
import proofs.«164955_j9826885174019_1_alg».proof.Proof.Spec
import Idealize.ShloMosaic.Lib.Pipeline.Value
import Idealize.ShloMosaic.Lib.ValueIdx
import Idealize.ShloMosaic.Lib.KernelVsHost
import Idealize.ShloMosaic.Lib.StableHlo.Predicate
import Idealize.ShloMosaic.Lib.Affine

/-!
One step of the kernel body on whole 256 × 256 frames, read at a pixel.

The body keeps a one-bit mask that is set exactly off the frame's border (rows and columns 1 … 254). With
`z v` the frame `v` with its border replaced by the zero literal, one step makes from the current frame
`un` and the frame before `unm1` the frame that is zero on the border and elsewhere

  2 · z un − z unm1 + κ · (((z un)(r+1, q) + (z un)(r−1, q) − 2 · z un) + ((z un)(r, q+1) + (z un)(r, q−1) − 2 · z un)),

the neighbours taken by rotations of the whole frame: off the border all four neighbours lie in the frame, so
no rotation wraps there, and on the border the mask discards whatever the rotations brought. This is the
specification's `stFK` of the two frames.
-/

set_option maxRecDepth 16384

noncomputable section

namespace Cert.KernelIdeal.Hand

open Cert.KernelIdeal Cert.KernelIdeal.Gen
open Idealize.ShloMosaic Idealize.ShloMosaic.ValueIdx
open Idealize.ShloMosaic.StableHlo.Predicate (sgt_iff_toNat slt_iff_toNat)

private theorem toNat_ofNat_coord (r : Fin 256) : (BitVec.ofNat 32 r.val).toNat = r.val := by
  rw [BitVec.toNat_ofNat]; exact Nat.mod_eq_of_lt (by have := r.isLt; omega)

/-- The interior mask at a pixel is set exactly off the border. -/
theorem mask_apply (r q : Fin 256) : k0_pay2 (ix2 r q) = 1#1 ↔ Cert.Wave.Inside r.val q.val := by
  have hr := toNat_ofNat_coord r
  have hq := toNat_ofNat_coord q
  have lr := r.isLt
  have lq := q.isLt
  have z0 : (0#32).toNat = 0 := rfl
  have z255 : (255#32).toNat = 255 := rfl
  unfold k0_pay2
  show IntOp.andi (IntOp.andi (IntOp.andi
        (IntOp.cmpi .sgt (iota .tc S256x256 32 [0] iota_S256x256_d0_w32 (ix2 r q)) 0#32)
        (IntOp.cmpi .slt (iota .tc S256x256 32 [0] iota_S256x256_d0_w32 (ix2 r q)) 255#32))
        (IntOp.cmpi .sgt (iota .tc S256x256 32 [1] iota_S256x256_d1_w32 (ix2 r q)) 0#32))
        (IntOp.cmpi .slt (iota .tc S256x256 32 [1] iota_S256x256_d1_w32 (ix2 r q)) 255#32) = 1#1 ↔ _
  rw [iota_single_apply, iota_single_apply]
  show IntOp.andi (IntOp.andi (IntOp.andi
        (IntOp.cmpi .sgt (BitVec.ofNat 32 r.val) 0#32) (IntOp.cmpi .slt (BitVec.ofNat 32 r.val) 255#32))
        (IntOp.cmpi .sgt (BitVec.ofNat 32 q.val) 0#32)) (IntOp.cmpi .slt (BitVec.ofNat 32 q.val) 255#32) = 1#1 ↔ _
  rw [IntOp.andi_eq_one, IntOp.andi_eq_one, IntOp.andi_eq_one,
    sgt_iff_toNat (by omega) (by omega), slt_iff_toNat (by omega) (by omega),
    sgt_iff_toNat (by omega) (by omega), slt_iff_toNat (by omega) (by omega), hr, hq, z0, z255]
  unfold Cert.Wave.Inside
  tauto

section Defs
variable {F : FTy → Type} [FloatOps F]

/-- A frame with its border zeroed, as the body computes it: the mask selects the frame or the zero literal. -/
def zeroBorder (v : FVec F S256x256 .f32) : FVec F S256x256 .f32 :=
  select k0_pay2 v (broadcast S256x256 (Scalar.ofBits .f32 0x00000000#32))

/-- The body's discrete Laplacian of a frame: along each axis the sum of the two neighbours (a rotation by 255
    of 256 reads the next row or column, a rotation by 1 the previous one) minus twice the frame, the two axes
    added. -/
def lapV (z : FVec F S256x256 .f32) : FVec F S256x256 .f32 :=
  addf
    (subf (addf (dynamicRotate 0 255#32 none z rotates_S256x256_d0) (dynamicRotate 0 1#32 none z rotates_S256x256_d0))
      (mulf (broadcast S256x256 (Scalar.ofBits .f32 0x40000000#32)) z))
    (subf (addf (dynamicRotate 1 255#32 none z rotates_S256x256_d1) (dynamicRotate 1 1#32 none z rotates_S256x256_d1))
      (mulf (broadcast S256x256 (Scalar.ofBits .f32 0x40000000#32)) z))

/-- One step of the body on whole frames: from the current frame `un` and the frame before `unm1`,
    `2·z un − z unm1 + κ · lap (z un)` off the border and zero on it. -/
def stV (un unm1 : FVec F S256x256 .f32) : FVec F S256x256 .f32 :=
  select k0_pay2
    (addf
      (subf (mulf (broadcast S256x256 (Scalar.ofBits .f32 0x40000000#32)) (zeroBorder un)) (zeroBorder unm1))
      (mulf (broadcast S256x256 (Scalar.ofBits .f32 0x3E4F5C29#32)) (lapV (zeroBorder un))))
    (broadcast S256x256 (Scalar.ofBits .f32 0x00000000#32))

end Defs

/-- A 256 × 256 frame as a function of the pixel, zero outside the frame. -/
def frameFn (v : FVec Ideal S256x256 .f32) : Nat → Nat → EReal := fun a b =>
  if h : a < 256 ∧ b < 256 then v (ix2 ⟨a, h.1⟩ ⟨b, h.2⟩) else Cert.Wave.zeroE

theorem frameFn_coord (v : FVec Ideal S256x256 .f32) (r q : Fin 256) : frameFn v r.val q.val = v (ix2 r q) :=
  dif_pos ⟨r.isLt, q.isLt⟩

/-- The zeroed frame at a pixel. -/
theorem zeroBorder_apply (v : FVec Ideal S256x256 .f32) (r q : Fin 256) :
    zeroBorder v (ix2 r q) = Cert.Wave.zf (frameFn v) r.val q.val := by
  unfold zeroBorder Cert.Wave.zf
  rw [select_apply, frameFn_coord]
  by_cases hI : Cert.Wave.Inside r.val q.val
  · rw [(mask_apply r q).mpr hI, select_one, if_pos hI]
  · rw [eq_zero_of_ne_one (fun h => hI ((mask_apply r q).mp h)), select_zero, if_neg hI]; rfl

/-- The same over natural coordinates inside the frame. -/
theorem zeroBorder_apply' (v : FVec Ideal S256x256 .f32) (a b : Nat) (ha : a < 256) (hb : b < 256) :
    zeroBorder v (ix2 ⟨a, ha⟩ ⟨b, hb⟩) = Cert.Wave.zf (frameFn v) a b :=
  zeroBorder_apply v ⟨a, ha⟩ ⟨b, hb⟩

/-- The four rotations off the frame's border: no rotation wraps there. -/
theorem rot_next_row (z : FVec Ideal S256x256 .f32) (r q : Fin 256) (h : r.val + 1 < 256) :
    dynamicRotate 0 255#32 none z rotates_S256x256_d0 (ix2 r q) = z (ix2 ⟨r.val + 1, h⟩ q) := by
  refine dynamicRotate_apply (0 : Fin 2) 255#32 z rotates_S256x256_d0 (ix2 r q) (ix2 ⟨r.val + 1, h⟩ q) ?_
  intro b
  match b with
  | ⟨0, _⟩ => show r.val + 1 = (r.val + 256 - 255 % 256) % 256; omega
  | ⟨1, _⟩ => rfl

theorem rot_prev_row (z : FVec Ideal S256x256 .f32) (r q : Fin 256) (h : 0 < r.val) :
    dynamicRotate 0 1#32 none z rotates_S256x256_d0 (ix2 r q) = z (ix2 ⟨r.val - 1, by omega⟩ q) := by
  refine dynamicRotate_apply (0 : Fin 2) 1#32 z rotates_S256x256_d0 (ix2 r q) (ix2 ⟨r.val - 1, by omega⟩ q) ?_
  intro b
  match b with
  | ⟨0, _⟩ => show r.val - 1 = (r.val + 256 - 1 % 256) % 256; omega
  | ⟨1, _⟩ => rfl

theorem rot_next_col (z : FVec Ideal S256x256 .f32) (r q : Fin 256) (h : q.val + 1 < 256) :
    dynamicRotate 1 255#32 none z rotates_S256x256_d1 (ix2 r q) = z (ix2 r ⟨q.val + 1, h⟩) := by
  refine dynamicRotate_apply (1 : Fin 2) 255#32 z rotates_S256x256_d1 (ix2 r q) (ix2 r ⟨q.val + 1, h⟩) ?_
  intro b
  match b with
  | ⟨0, _⟩ => rfl
  | ⟨1, _⟩ => show q.val + 1 = (q.val + 256 - 255 % 256) % 256; omega

theorem rot_prev_col (z : FVec Ideal S256x256 .f32) (r q : Fin 256) (h : 0 < q.val) :
    dynamicRotate 1 1#32 none z rotates_S256x256_d1 (ix2 r q) = z (ix2 r ⟨q.val - 1, by omega⟩) := by
  refine dynamicRotate_apply (1 : Fin 2) 1#32 z rotates_S256x256_d1 (ix2 r q) (ix2 r ⟨q.val - 1, by omega⟩) ?_
  intro b
  match b with
  | ⟨0, _⟩ => rfl
  | ⟨1, _⟩ => show q.val - 1 = (q.val + 256 - 1 % 256) % 256; omega

/-- One step of the body at a pixel is the stencil of the two frames. -/
theorem stV_apply (un unm1 : FVec Ideal S256x256 .f32) (r q : Fin 256) :
    stV un unm1 (ix2 r q) = Cert.Wave.stFK (frameFn unm1) (frameFn un) r.val q.val := by
  unfold stV Cert.Wave.stFK
  rw [select_apply]
  by_cases hI : Cert.Wave.Inside r.val q.val
  · have h1 : r.val + 1 < 256 := by have := hI.2.1; omega
    have h2 : 0 < r.val := hI.1
    have h3 : q.val + 1 < 256 := by have := hI.2.2.2; omega
    have h4 : 0 < q.val := hI.2.2.1
    rw [(mask_apply r q).mpr hI, select_one, if_pos hI]
    unfold lapV
    rw [addf_apply, subf_apply, mulf_apply, mulf_apply, addf_apply, subf_apply, subf_apply, addf_apply, addf_apply,
      mulf_apply, rot_next_row _ r q h1, rot_prev_row _ r q h2, rot_next_col _ r q h3, rot_prev_col _ r q h4,
      zeroBorder_apply, zeroBorder_apply, zeroBorder_apply', zeroBorder_apply', zeroBorder_apply', zeroBorder_apply']
    rfl
  · rw [eq_zero_of_ne_one (fun h => hI ((mask_apply r q).mp h)), select_zero, if_neg hI]; rfl

end Cert.KernelIdeal.Hand

end
-- ==== Proof.KValue.BlockPieces.lean ====
import proofs.«164955_j9826885174019_1_alg».proof.Proof.KI.Run
import proofs.«164955_j9826885174019_1_alg».proof.Proof.KValue.BlockStencil
import Idealize.ShloMosaic.Lib.Pipeline.FrameBody
import Idealize.ShloMosaic.Lib.Pipeline.Value
import Idealize.ShloMosaic.Lib.ValueIdx

/-!
The pieces the body's run leaves, as one uniform list.

The run finds 25 pieces, the last store first. Store `k` writes the unit rectangle of one frame at frame
`k` of the result buffer; its payload is one step of the body on two loaded frames — frame `k` of the
chunk buffer (the frame before) and the frame after it, which is frame `k + 1` of the chunk buffer for
`k < 24` and the one frame of the next-frame buffer for `k = 24` —, each loaded 1 × 256 × 256, viewed
256 × 256 for the step, and the result viewed back 1 × 256 × 256. The run's list is this list by unfolding.
The rest of the module reads the loads, the two views and the store's rectangle at explicit coordinates.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem

section Pieces
variable (x0 : Vec Ideal S25x256x256 .f32) (x1 : Vec Ideal S1x256x256 .f32)

theorem frame_inb (k : Nat) (hk : k < 25) :
    ∀ a, (![k, 0, 0] : Fin 3 → Nat) a + S1x256x256.size a ≤ S25x256x256.size a := by
  intro a
  match a with
  | ⟨0, _⟩ => show k + 1 ≤ 25; omega
  | ⟨1, _⟩ => show 0 + 256 ≤ 256; omega
  | ⟨2, _⟩ => show 0 + 256 ≤ 256; omega

/-- Frame `k` of the chunk, as the body loads it. -/
def chunkLd (k : Nat) (hk : k < 25) : Vec Ideal S1x256x256 .f32 :=
  View.ld x0 (Rect.unit ![k, 0, 0] S1x256x256.size (frame_inb k hk))

/-- The one frame of the next-frame buffer, as the body loads it. -/
def oneLd : Vec Ideal S1x256x256 .f32 :=
  View.ld x1 (Rect.unit ![0, 0, 0] S1x256x256.size inb_S1x256x256_S1x256x256_0_0_0)

/-- The frame after frame `k`. -/
def nextLd (k : Nat) : Vec Ideal S1x256x256 .f32 :=
  if h : k + 1 < 25 then chunkLd x0 (k + 1) h else oneLd x1

/-- What one store writes: the step of the two loaded frames, each viewed 256 × 256, viewed back 1 × 256 × 256. -/
def outFrame (cur nxt : Vec Ideal S1x256x256 .f32) : Vec Ideal S1x256x256 .f32 :=
  shapeCast S1x256x256
    (stV (F := Ideal) (shapeCast S256x256 nxt shapeCasts_S1x256x256_S256x256) (shapeCast S256x256 cur shapeCasts_S1x256x256_S256x256))
    shapeCasts_S256x256_S1x256x256

/-- The piece the store of frame `k` leaves. -/
def pc (k : Fin 25) : View.Piece (Elt Ideal) S25x256x256 .f32 :=
  ⟨Rect.unit ![k.val, 0, 0] S1x256x256.size (frame_inb k.val k.isLt), outFrame (chunkLd x0 k.val k.isLt) (nextLd x0 x1 k.val)⟩

/-- The stores in the order the run lists them: the last first. -/
def order : List (Fin 25) :=
  [⟨24, by decide⟩, ⟨23, by decide⟩, ⟨22, by decide⟩, ⟨21, by decide⟩, ⟨20, by decide⟩, ⟨19, by decide⟩, ⟨18, by decide⟩,
   ⟨17, by decide⟩, ⟨16, by decide⟩, ⟨15, by decide⟩, ⟨14, by decide⟩, ⟨13, by decide⟩, ⟨12, by decide⟩, ⟨11, by decide⟩,
   ⟨10, by decide⟩, ⟨9, by decide⟩, ⟨8, by decide⟩, ⟨7, by decide⟩, ⟨6, by decide⟩, ⟨5, by decide⟩, ⟨4, by decide⟩,
   ⟨3, by decide⟩, ⟨2, by decide⟩, ⟨1, by decide⟩, ⟨0, by decide⟩]

theorem mem_order : ∀ k : Fin 25, k ∈ order := by decide

def pieces : List (View.Piece (Elt Ideal) S25x256x256 .f32) := order.map (pc x0 x1)

end Pieces

set_option maxHeartbeats 4000000 in
theorem kernelRun_pieces (c : Dev nD) (i : grid0.Coords)
    (arg1 : Memref sig .tc .vmem S25x256x256 .f32) (harg1 : arg1.IsWhole)
    (arg2 : Memref sig .tc .vmem S1x256x256 .f32) (harg2 : arg2.IsWhole)
    (arg3 : Memref sig .tc .vmem S25x256x256 .f32) (harg3 : arg3.IsWhole)
    (x0 : Vec Ideal S25x256x256 .f32) (x1 : Vec Ideal S1x256x256 .f32) :
    (kernelRun (F := Ideal) c i arg1 harg1 arg2 harg2 arg3 harg3 x0 x1).1 = pieces x0 x1 := by
  unfold kernelRun
  dsimp only
  sl_unfold_run_names
  simp only [View.readAt_eq_ld, harg1.read_unread, harg2.read_unread]
  rfl

section PieceIdx
variable (x0 : Vec Ideal S25x256x256 .f32) (x1 : Vec Ideal S1x256x256 .f32)

/-- A loaded chunk frame, viewed 256 × 256, at a pixel. -/
theorem shapeCast_chunkLd_apply (k : Nat) (hk : k < 25) (a b : Fin 256) :
    shapeCast S256x256 (chunkLd x0 k hk) shapeCasts_S1x256x256_S256x256 (ix2 a b) = x0 (ix3 ⟨k, hk⟩ a b) := by
  refine (shapeCast_dropUnit_apply ![256, 256] (chunkLd x0 k hk) shapeCasts_S1x256x256_S256x256 (ix2 a b)).trans ?_
  unfold chunkLd
  refine congrArg x0 (funext fun d => Fin.ext ?_)
  match d with
  | ⟨0, _⟩ => show k + 1 * 0 = k; omega
  | ⟨1, _⟩ => show 0 + 1 * a.val = a.val; omega
  | ⟨2, _⟩ => show 0 + 1 * b.val = b.val; omega

/-- The loaded next-frame buffer, viewed 256 × 256, at a pixel. -/
theorem shapeCast_oneLd_apply (a b : Fin 256) :
    shapeCast S256x256 (oneLd x1) shapeCasts_S1x256x256_S256x256 (ix2 a b) = x1 (ix3 ⟨0, Nat.one_pos⟩ a b) := by
  refine (shapeCast_dropUnit_apply ![256, 256] (oneLd x1) shapeCasts_S1x256x256_S256x256 (ix2 a b)).trans ?_
  unfold oneLd
  refine congrArg x1 (funext fun d => Fin.ext ?_)
  match d with
  | ⟨0, _⟩ => rfl
  | ⟨1, _⟩ => show 0 + 1 * a.val = a.val; omega
  | ⟨2, _⟩ => show 0 + 1 * b.val = b.val; omega

/-- What a store writes, at a pixel of its one frame. -/
theorem outFrame_apply (cur nxt : Vec Ideal S1x256x256 .f32) (z : Fin 1) (r q : Fin 256) :
    outFrame cur nxt (ix3 z r q)
      = stV (F := Ideal) (shapeCast S256x256 nxt shapeCasts_S1x256x256_S256x256)
          (shapeCast S256x256 cur shapeCasts_S1x256x256_S256x256) (ix2 r q) := by
  unfold outFrame
  refine (shapeCast_addUnit_apply ![256, 256] _ shapeCasts_S256x256_S1x256x256 (ix3 z r q)).trans ?_
  refine congrArg _ (funext fun d => ?_)
  match d with
  | ⟨0, _⟩ => rfl
  | ⟨1, _⟩ => rfl

/-- The store of frame `k` places pixel `(r, q)` of its one frame at pixel `(r, q)` of frame `k`. -/
theorem pc_emb (k : Fin 25) (z : Fin 1) (r q : Fin 256) :
    (pc x0 x1 k).1.emb (ix3 z r q) = ix3 k r q := by
  refine funext fun d => Fin.ext ?_
  have hz : z.val = 0 := by omega
  match d with
  | ⟨0, _⟩ => show k.val + 1 * z.val = k.val; omega
  | ⟨1, _⟩ => show 0 + 1 * r.val = r.val; omega
  | ⟨2, _⟩ => show 0 + 1 * q.val = q.val; omega

/-- Every pixel of frame `k` lies under the store of frame `k`. -/
theorem mem_pc_set (k : Fin 25) (r q : Fin 256) : ix3 k r q ∈ (pc x0 x1 k).1.set := by
  rw [← pc_emb x0 x1 k 0 r q, ← Rect.map_emb_univ]
  exact Finset.mem_map_of_mem _ (Finset.mem_univ _)

end PieceIdx

end Cert.KernelIdeal.Hand

end
-- ==== Proof.KValue.Block.lean ====
import proofs.«164955_j9826885174019_1_alg».proof.Proof.KI.Run
import proofs.«164955_j9826885174019_1_alg».proof.Proof.Spec
import proofs.«164955_j9826885174019_1_alg».proof.Proof.KValue.BlockPieces
import Idealize.ShloMosaic.Lib.Pipeline.FrameBody
import Idealize.ShloMosaic.Lib.Pipeline.Value
import Idealize.ShloMosaic.Lib.ValueIdx
import Idealize.ShloMosaic.Lib.KernelVsHost

/-!
What the body's 25 stores leave, read at one pixel of one frame.

Frame `j` of the result's buffer is the stencil of frame `j` of the chunk (the frame before) and the
frame after it: frame `j + 1` of the chunk for `j < 24`, and for the last frame the one frame of the
next-frame buffer.

The 25 stores tile the buffer frame by frame, and the payload of the store of frame `k` is, pixel by pixel,
the part at frame `k` of ONE function of the buffer's index (`stepAll`): the stencil of frame `k` and the
frame after it. So the canonical contents of the pieces are that function at every pixel some store covers,
and pixel `(r, q)` of frame `j` lies under the store of frame `j`.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Frame `j` of a chunk of 25 frames, as a function of the pixel. -/
def chunkFrame (x0 : Vec Ideal S25x256x256 .f32) (j : Nat) : Nat → Nat → EReal := fun r c =>
  if h : j < 25 ∧ r < 256 ∧ c < 256 then x0 (ix3 ⟨j, h.1⟩ ⟨r, h.2.1⟩ ⟨c, h.2.2⟩) else Cert.Wave.zeroE

/-- The one frame of the next-frame buffer, as a function of the pixel. -/
def oneFrame (x1 : Vec Ideal S1x256x256 .f32) : Nat → Nat → EReal := fun r c =>
  if h : r < 256 ∧ c < 256 then x1 (ix3 ⟨0, Nat.one_pos⟩ ⟨r, h.1⟩ ⟨c, h.2⟩) else Cert.Wave.zeroE

section Final
variable (x0 : Vec Ideal S25x256x256 .f32) (x1 : Vec Ideal S1x256x256 .f32)

/-- A loaded chunk frame, as a function of the pixel, is that frame of the chunk. -/
theorem frameFn_chunkLd (k : Nat) (hk : k < 25) :
    frameFn (shapeCast S256x256 (chunkLd x0 k hk) shapeCasts_S1x256x256_S256x256) = chunkFrame x0 k := by
  funext a b
  unfold frameFn chunkFrame
  by_cases h : a < 256 ∧ b < 256
  · rw [dif_pos h, dif_pos ⟨hk, h.1, h.2⟩, shapeCast_chunkLd_apply]
  · rw [dif_neg h, dif_neg (fun h' => h ⟨h'.2.1, h'.2.2⟩)]

theorem frameFn_oneLd :
    frameFn (shapeCast S256x256 (oneLd x1) shapeCasts_S1x256x256_S256x256) = oneFrame x1 := by
  funext a b
  unfold frameFn oneFrame
  by_cases h : a < 256 ∧ b < 256
  · rw [dif_pos h, dif_pos h, shapeCast_oneLd_apply]
  · rw [dif_neg h, dif_neg h]

theorem frameFn_nextLd (k : Nat) :
    frameFn (shapeCast S256x256 (nextLd x0 x1 k) shapeCasts_S1x256x256_S256x256)
      = if k + 1 < 25 then chunkFrame x0 (k + 1) else oneFrame x1 := by
  unfold nextLd
  by_cases h : k + 1 < 25
  · rw [dif_pos h, if_pos h]; exact frameFn_chunkLd x0 (k + 1) h
  · rw [dif_neg h, if_neg h]; exact frameFn_oneLd x1

/-- The whole result buffer as one function of its index: frame by frame the stencil of the frame and the one
    after it. -/
def stepAll : S25x256x256.Idx → EReal := fun y =>
  Cert.Wave.stFK (chunkFrame x0 (y 0).val) (if (y 0).val + 1 < 25 then chunkFrame x0 ((y 0).val + 1) else oneFrame x1)
    (y 1).val (y 2).val

/-- Each store's payload is the part of that function its rectangle names. -/
theorem pc_apply (k : Fin 25) (x : (pc x0 x1 k).1.shape.Idx) :
    (pc x0 x1 k).2 x = stepAll x0 x1 ((pc x0 x1 k).1.emb x) := by
  obtain ⟨z, r, q, rfl⟩ : ∃ (z : Fin 1) (r q : Fin 256), x = ix3 z r q := ⟨x 0, x 1, x 2, eq_ix3 x⟩
  rw [pc_emb]
  show outFrame (chunkLd x0 k.val k.isLt) (nextLd x0 x1 k.val) (ix3 z r q) = _
  rw [outFrame_apply, stV_apply, frameFn_chunkLd, frameFn_nextLd]
  rfl

end Final

/-- The stores' canonical contents at frame `j`, pixel `(r, q)`. -/
theorem canon_kernelRun_apply (c : Dev nD) (i : grid0.Coords)
    (arg1 : Memref sig .tc .vmem S25x256x256 .f32) (harg1 : arg1.IsWhole)
    (arg2 : Memref sig .tc .vmem S1x256x256 .f32) (harg2 : arg2.IsWhole)
    (arg3 : Memref sig .tc .vmem S25x256x256 .f32) (harg3 : arg3.IsWhole)
    (x0 : Vec Ideal S25x256x256 .f32) (x1 : Vec Ideal S1x256x256 .f32) (j : Fin 25) (r q : Fin 256) :
    View.canon (kernelRun (F := Ideal) c i arg1 harg1 arg2 harg2 arg3 harg3 x0 x1).1 (ix3 j r q)
      = Cert.Wave.stFK (chunkFrame x0 j.val) (if j.val + 1 < 25 then chunkFrame x0 (j.val + 1) else oneFrame x1) r.val q.val := by
  rw [kernelRun_pieces]
  refine View.canon_apply_of_pieces (stepAll x0 x1) (pieces x0 x1) ?_ (ix3 j r q)
    ⟨pc x0 x1 j, List.mem_map.2 ⟨j, mem_order j, rfl⟩, mem_pc_set x0 x1 j r q⟩
  intro p hp x
  obtain ⟨k, -, rfl⟩ := List.mem_map.1 hp
  exact pc_apply x0 x1 k x

end Cert.KernelIdeal.Hand

end
-- ==== Proof.KValue.Final.lean ====
import proofs.«164955_j9826885174019_1_alg».proof.Proof.KI.Data
import proofs.«164955_j9826885174019_1_alg».proof.Proof.KValue.Block
import Idealize.ShloMosaic.Lib.Pipeline.Value
import Idealize.ShloMosaic.Lib.StableHlo.Run

/-!
The result array after the run, as one function of the stacked frames.

Point `t` writes back frames `25 t … 25 t + 24` of the result; the 40 blocks tile the 1000 result frames.
Frame `25 t + j` is the stencil of stack frames `25 t + j` and `25 t + j + 1`: both in the chunk for
`j < 24`, and for `j = 24` the second is the next-frame window's block, stack frame `25 (t + 1)`.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The stacked frames when the region is entered: the first argument with its unit axis dropped. -/
theorem V_main_v0 (c : Dev nD) :
    (V m c main_v0 : S1002x256x256.Idx → EReal)
      = shapeCast S1002x256x256 (m ((c : Thread nD τ).loc main_arg0)) shapeCasts_S1002x1x256x256_S1002x256x256 := by
  dsimp only [V, hostOps0]
  after_results
  rfl

/-- The arguments are as launched when the region is entered. -/
theorem V_main_arg0 (c : Dev nD) : V m c main_arg0 = m ((c : Thread nD τ).loc main_arg0) := by
  dsimp only [V, hostOps0]
  after_results
theorem V_main_arg1 (c : Dev nD) : V m c main_arg1 = m ((c : Thread nD τ).loc main_arg1) := by
  dsimp only [V, hostOps0]
  after_results

/-! ## Where the three windows' blocks sit -/

/-- The block indices at point `t`: the chunk window's and the result window's are `(t, 0, 0)` in blocks of
    25 frames, the next-frame window's is `((t + 1) · 25, 0, 0)` in blocks of one frame. -/
private theorem idx_facts : ∀ t : Fin cfg0.N,
    win0_0.index t (0 : Fin 3) = t.val ∧ win0_0.index t (1 : Fin 3) = 0 ∧ win0_0.index t (2 : Fin 3) = 0
    ∧ win0_1.index t (0 : Fin 3) = (t.val + 1) * 25 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A point of the grid is below 40. -/
private theorem pt_lt (t : Fin cfg0.N) : t.val < 40 := lt_of_lt_of_eq t.isLt N_0

/-- Element `(j, r, q)` of the chunk at point `t` is the stack at `(25 t + j, r, q)`: no chunk is cut, so the
    whole block is what was read, and a block's element sits at block index × block size + its own coordinate. -/
private theorem blk0_apply (c : Dev nD) (t : Fin cfg0.N) (j : Fin 25) (r q : Fin 256) (h : 25 * t.val + j.val < 1002) :
    blk0 m c t (ix3 j r q) = (V m c main_v0 : S1002x256x256.Idx → EReal) (ix3 ⟨25 * t.val + j.val, h⟩ r q) := by
  have hm : win0_0.moved (grid0.coords t) (ix3 j r q) = true :=
    (win0_0.moved_iff _ _).mpr fun a => by
      have := ((ix3 j r q : S25x256x256.Idx) a).isLt; unfold Window.xsize; rw [clip0_none t a]; exact this
  obtain ⟨e0, e1, e2, -⟩ := idx_facts t
  unfold blk0 Window.fill
  rw [dif_pos hm, View.read_apply]
  show (V m c main_v0 : S1002x256x256.Idx → EReal) ((win0_0.rect t).emb _) = _
  congr 1
  funext a; apply Fin.ext
  rw [Rect.emb_apply]
  match a with
  | ⟨0, _⟩ => show win0_0.index t (0 : Fin 3) * 25 + 1 * j.val = 25 * t.val + j.val; omega
  | ⟨1, _⟩ => show win0_0.index t (1 : Fin 3) * 256 + 1 * r.val = r.val; omega
  | ⟨2, _⟩ => show win0_0.index t (2 : Fin 3) * 256 + 1 * q.val = q.val; omega

/-- Element `(0, r, q)` of the next-frame block at point `t` is the stack at `(25 (t + 1), r, q)`. -/
private theorem blk1_apply (c : Dev nD) (t : Fin cfg0.N) (r q : Fin 256) (h : 25 * (t.val + 1) < 1002) :
    blk1 m c t (ix3 ⟨0, Nat.one_pos⟩ r q) = (V m c main_v0 : S1002x256x256.Idx → EReal) (ix3 ⟨25 * (t.val + 1), h⟩ r q) := by
  have hm : win0_1.moved (grid0.coords t) (ix3 ⟨0, Nat.one_pos⟩ r q) = true := rfl
  obtain ⟨-, -, -, e0, e1, e2, -⟩ := idx_facts t
  unfold blk1 Window.fill
  rw [dif_pos hm, View.read_apply]
  show (V m c main_v0 : S1002x256x256.Idx → EReal) ((win0_1.rect t).emb _) = _
  congr 1
  funext a; apply Fin.ext
  rw [Rect.emb_apply]
  match a with
  | ⟨0, _⟩ => show win0_1.index t (0 : Fin 3) * 1 + 1 * 0 = 25 * (t.val + 1); omega
  | ⟨1, _⟩ => show win0_1.index t (1 : Fin 3) * 256 + 1 * r.val = r.val; omega
  | ⟨2, _⟩ => show win0_1.index t (2 : Fin 3) * 256 + 1 * q.val = q.val; omega

/-! ## The blocks' frames are the stack's frames -/

/-- Frame `j` of the chunk at point `t` is frame `25 t + j` of the stack (`25 t + j ≤ 999`, inside the stack). -/
private theorem chunkFrame_blk0 (c : Dev nD) (t : Fin cfg0.N) (j : Nat) (hj : j < 25) :
    chunkFrame (blk0 m c t) j = Cert.Wave.frameOf (V m c main_v0) (25 * t.val + j) := by
  have ht := pt_lt t
  funext r q
  unfold chunkFrame Cert.Wave.frameOf
  by_cases hrq : r < 256 ∧ q < 256
  · rw [dif_pos ⟨hj, hrq⟩, dif_pos ⟨by omega, hrq⟩]
    exact blk0_apply m c t ⟨j, hj⟩ ⟨r, hrq.1⟩ ⟨q, hrq.2⟩ (by show 25 * t.val + j < 1002; omega)
  · rw [dif_neg (fun h => hrq h.2), dif_neg (fun h => hrq h.2)]

/-- The next-frame block at point `t` is frame `25 (t + 1)` of the stack (at most 1000, inside the stack). -/
private theorem oneFrame_blk1 (c : Dev nD) (t : Fin cfg0.N) :
    oneFrame (blk1 m c t) = Cert.Wave.frameOf (V m c main_v0) (25 * (t.val + 1)) := by
  have ht := pt_lt t
  funext r q
  unfold oneFrame Cert.Wave.frameOf
  by_cases hrq : r < 256 ∧ q < 256
  · rw [dif_pos hrq, dif_pos ⟨by omega, hrq⟩]
    exact blk1_apply m c t ⟨r, hrq.1⟩ ⟨q, hrq.2⟩ (by omega)
  · rw [dif_neg hrq, dif_neg (fun h => hrq h.2)]

/-! ## What a point writes back, and the cover -/

/-- What point `t` writes back is block `t` of the stencil of the stacked frames: element `(j, r, q)` of the
    block is result element `(25 t + j, r, q)`, the stencil of stack frames `25 t + j` and `25 t + j + 1`; the
    second is chunk frame `j + 1` for `j < 24` and the next-frame block, stack frame `25 (t + 1)`, for `j = 24`. -/
private theorem flushed_eq (c : Dev nD) (t : Fin cfg0.N) :
    (dats m 0 c).flushed 2 t = ((cfg0.win 2).blk t).view.read (Elt Ideal) (Cert.Wave.outK (V m c main_v0)) := by
  have ht := pt_lt t
  obtain ⟨-, -, -, -, -, -, e0, e1, e2⟩ := idx_facts t
  show (cfg0.win 2).cut (grid0.coords t) ((dats m 0 c).after 2 t) = _
  rw [after_2]
  funext y
  obtain ⟨j, r, q, rfl⟩ : ∃ (j : Fin 25) (r q : Fin 256), y = ix3 j r q := ⟨y 0, y 1, y 2, eq_ix3 y⟩
  rw [View.read_apply]
  show outBlk m c t (ix3 j r q) = Cert.Wave.outK (V m c main_v0) ((win0_2.rect t).emb (ix3 j r q))
  have a0 : (((win0_2.rect t).emb (ix3 j r q) : S1000x256x256.Idx) 0).val = 25 * t.val + j.val := by
    rw [Rect.emb_apply]; show win0_2.index t (0 : Fin 3) * 25 + 1 * j.val = _; omega
  have a1 : (((win0_2.rect t).emb (ix3 j r q) : S1000x256x256.Idx) 1).val = r.val := by
    rw [Rect.emb_apply]; show win0_2.index t (1 : Fin 3) * 256 + 1 * r.val = _; omega
  have a2 : (((win0_2.rect t).emb (ix3 j r q) : S1000x256x256.Idx) 2).val = q.val := by
    rw [Rect.emb_apply]; show win0_2.index t (2 : Fin 3) * 256 + 1 * q.val = _; omega
  unfold outBlk Cert.Wave.outK
  rw [canon_kernelRun_apply, a0, a1, a2, chunkFrame_blk0 m c t j.val j.isLt]
  congr 1
  by_cases hj : j.val + 1 < 25
  · rw [if_pos hj, chunkFrame_blk0 m c t (j.val + 1) hj]; rfl
  · rw [if_neg hj, oneFrame_blk1]
    congr 1; omega

/-- An index of the result is in point `t`'s block iff each coordinate is in the block's range on its axis. -/
private theorem mem_blk (t : Fin cfg0.N) (i : S1000x256x256.Idx) :
    i ∈ ((cfg0.win 2).blk t).view.set ↔ ∀ a : Fin 3, win0_2.index t a * S25x256x256.size a ≤ (i a).val ∧ (i a).val < win0_2.index t a * S25x256x256.size a + S25x256x256.size a := by
  show i ∈ ((View.whole main_v1).slice (win0_2.rect t)).set ↔ _
  rw [View.set_slice_whole, Rect.mem_set_unit]
  exact Iff.rfl

/-- Result frame `n` lies in the block of point `n / 25`, and every point writes its block back. -/
private theorem cover (i : S1000x256x256.Idx) :
    ∃ t : Fin cfg0.N, (cfg0.win 2).flush t = true ∧ i ∈ ((cfg0.win 2).blk t).view.set := by
  have h0 : (i 0).val < 1000 := (i 0).isLt
  have h1 : (i 1).val < 256 := (i 1).isLt
  have h2 : (i 2).val < 256 := (i 2).isLt
  have hN : (i 0).val / 25 < cfg0.N := by rw [show cfg0.N = 40 from N_0]; omega
  refine ⟨⟨(i 0).val / 25, hN⟩, flush0_2 _, ?_⟩
  obtain ⟨-, -, -, -, -, -, e0, e1, e2⟩ := idx_facts ⟨(i 0).val / 25, hN⟩
  rw [mem_blk]
  intro a
  match a with
  | ⟨0, _⟩ =>
    show win0_2.index ⟨(i 0).val / 25, hN⟩ (0 : Fin 3) * 25 ≤ (i 0).val
      ∧ (i 0).val < win0_2.index ⟨(i 0).val / 25, hN⟩ (0 : Fin 3) * 25 + 25
    rw [e0]
    show (i 0).val / 25 * 25 ≤ (i 0).val ∧ (i 0).val < (i 0).val / 25 * 25 + 25
    omega
  | ⟨1, _⟩ =>
    show win0_2.index ⟨(i 0).val / 25, hN⟩ (1 : Fin 3) * 256 ≤ (i 1).val
      ∧ (i 1).val < win0_2.index ⟨(i 0).val / 25, hN⟩ (1 : Fin 3) * 256 + 256
    omega
  | ⟨2, _⟩ =>
    show win0_2.index ⟨(i 0).val / 25, hN⟩ (2 : Fin 3) * 256 ≤ (i 2).val
      ∧ (i 2).val < win0_2.index ⟨(i 0).val / 25, hN⟩ (2 : Fin 3) * 256 + 256
    omega

/-- The result array after the last write-back is the stencil of the stacked frames. -/
theorem final_out (c : Dev nD) :
    ((dats m 0 c).arrAt 2 cfg0.N : S1000x256x256.Idx → EReal) = Cert.Wave.outK (V m c main_v0) :=
  (dats m 0 c).arrAt_eq_of_cover 2 (Cert.Wave.outK (V m c main_v0)) (fun t _ => flushed_eq m c t) cover

end Cert.KernelIdeal.Hand

end
-- ==== Proof.lean ====
/-
  Both programs compute the leapfrog wave stencil of the stacked frames: output frame n is zero on the border
  and, inside, 2·z(n+1) − z(n) + κ·(the discrete Laplacian of z(n+1)), z the frames with their border zeroed.
  The kernel computes 25 output frames per grid point from a chunk of 25 input frames and the one frame after
  it; its 40 blocks tile the 1000 output frames. The reference computes the same from shifted slices of the
  whole stack. The two differ in how the Laplacian's two second differences are multiplied by κ, which is
  distributivity in the extended reals and holds because the precondition makes every input entry a real number.
  The frames: each program runs to its end with its arguments untouched (the kernel reads the stacked frames
  through two windows at once, and writes only its result).
-/
import proofs.«164955_j9826885174019_1_alg».proof.Defs
import proofs.«164955_j9826885174019_1_alg».proof.Proof.Gen.Kernel
import proofs.«164955_j9826885174019_1_alg».proof.Proof.Gen.KernelIdeal
import proofs.«164955_j9826885174019_1_alg».proof.Proof.Gen.ReferenceIdeal
import proofs.«164955_j9826885174019_1_alg».proof.Proof.Gen.Pre_finite_inputs
import proofs.«164955_j9826885174019_1_alg».proof.Proof.Gen.ReferenceIdeal.Run
import proofs.«164955_j9826885174019_1_alg».proof.Proof.Gen.ReferenceIdeal.Read
import proofs.«164955_j9826885174019_1_alg».proof.Proof.Spec
import proofs.«164955_j9826885174019_1_alg».proof.Proof.Finite
import proofs.«164955_j9826885174019_1_alg».proof.Proof.RefValue
import proofs.«164955_j9826885174019_1_alg».proof.Proof.K.End
import proofs.«164955_j9826885174019_1_alg».proof.Proof.KI.End
import proofs.«164955_j9826885174019_1_alg».proof.Proof.KValue.Final
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to its end with both arguments as launched. -/
theorem frame_K : @Cert.frame_Kernel Cert.Kernel.Gen.facts Cert.Pre_finite_inputs.Gen.facts := fun m ρ _ =>
  (θ_run Cert.Kernel.defs _ _).mono
    (fun r h c => ⟨(h c Cert.Kernel.main_arg0 (.inr (.inl rfl))).trans (Cert.Kernel.Hand.Vend_main_arg0 m c),
      (h c Cert.Kernel.main_arg1 (.inr (.inr rfl))).trans (Cert.Kernel.Hand.Vend_main_arg1 m c)⟩)
    (Cert.Kernel.Hand.run_main (F := Bits) m ρ)

/-- So does the idealized kernel. -/
theorem frame_KI : @Cert.frame_KernelIdeal Cert.KernelIdeal.Gen.facts Cert.Pre_finite_inputs.Gen.facts := fun m ρ _ =>
  (θ_run Cert.KernelIdeal.defs _ _).mono
    (fun r h c => ⟨(h c Cert.KernelIdeal.main_arg0 (.inr (.inl rfl))).trans (Cert.KernelIdeal.Hand.Vend_main_arg0 m c),
      (h c Cert.KernelIdeal.main_arg1 (.inr (.inr rfl))).trans (Cert.KernelIdeal.Hand.Vend_main_arg1 m c)⟩)
    (Cert.KernelIdeal.Hand.run_main (F := Ideal) m ρ)

/-- The reference is host operations only: its run, with the result dropped. -/
theorem frame_RI : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The stacked frames hold real numbers: each is an entry of the first argument. -/
theorem frames_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) (i : Cert.Wave.SIn.Idx) :
    ∃ x : ℝ, (Cert.KernelIdeal.Hand.V m c Cert.KernelIdeal.main_v0 : Cert.Wave.SIn.Idx → EReal) i = (x : EReal) := by
  rw [Cert.KernelIdeal.Hand.V_main_v0]
  unfold shapeCast
  exact @Cert.Wave.arg0_real Cert.Pre_finite_inputs.Gen.facts m h c _

/-- The two idealized programs end with the same result: the stencil of the stacked frames with a unit axis put back. -/
theorem algebraic : @Cert.algebraic_KernelIdeal_ReferenceIdeal Cert.KernelIdeal.Gen.facts Cert.ReferenceIdeal.Gen.facts Cert.Pre_finite_inputs.Gen.facts :=
  fun m ρ m' ρ' hpre hagree =>
    ⟨fun c => broadcastInDim Cert.KernelIdeal.S1000x1x256x256 ![0, 2, 3] Cert.KernelIdeal.Facts₀.bcast_S1000x256x256_S1000x1x256x256_0_2_3
        (Cert.Wave.outK (Cert.KernelIdeal.Hand.V m c Cert.KernelIdeal.main_v0)),
      (θ_run Cert.KernelIdeal.defs _ _).mono
        (fun r h c => ⟨(h c Cert.KernelIdeal.main_v2 (.inl rfl)).trans
            ((Cert.KernelIdeal.Hand.Vend_main_v2 m c).trans (congrArg _ (Cert.KernelIdeal.Hand.final_out m c))),
          (h c Cert.KernelIdeal.main_arg0 (.inr (.inl rfl))).trans (Cert.KernelIdeal.Hand.Vend_main_arg0 m c),
          (h c Cert.KernelIdeal.main_arg1 (.inr (.inr rfl))).trans (Cert.KernelIdeal.Hand.Vend_main_arg1 m c)⟩)
        (Cert.KernelIdeal.Hand.run_main (F := Ideal) m ρ),
      (θ_run Cert.ReferenceIdeal.defs _ _).mono
        (fun r h c => ⟨by
            rw [(h c).1, Cert.ReferenceIdeal.Read.val_main_v43_eq]
            unfold Cert.ReferenceIdeal.Read.val_main_v43
            rw [Cert.ReferenceIdeal.RefValue.val_main_v42_eq, (hagree c).1]
            dsimp only
            rw [Cert.Wave.outK_eq_outR _ (frames_real m hpre c), Cert.KernelIdeal.Hand.V_main_v0]
            rfl,
          (h c).2.1, (h c).2.2⟩)
        (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
